-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x768 : Shape := ⟨3, ![4, 512, 768]⟩
abbrev S4x512 : Shape := ⟨2, ![4, 512]⟩
abbrev S768 : Shape := ⟨1, ![768]⟩
abbrev S32128x768 : Shape := ⟨2, ![32128, 768]⟩
abbrev S_ : Shape := ⟨0, ![]⟩

class Facts : Prop where
  bcast_S_S4x512x768 : S_.BroadcastsInDim S4x512x768 (![] : Fin 0 → Fin S4x512x768.rank)
  reducesTo_S4x512x768_S_d0_1_2 : S4x512x768.ReducesTo [0, 1, 2] S_
  h_S_ : 0 < S_.numel
  bcast_S_S768 : S_.BroadcastsInDim S768 (![] : Fin 0 → Fin S768.rank)
  reducesTo_S768_S_d0 : S768.ReducesTo [0] S_
  bcast_S_S32128x768 : S_.BroadcastsInDim S32128x768 (![] : Fin 0 → Fin S32128x768.rank)
  reducesTo_S32128x768_S_d0_1 : S32128x768.ReducesTo [0, 1] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg1 : IVec S4x512 32) (main_v13 : IVec S_ 1) (main_v15 : IVec S4x512 1) (main_c_5 : IVec S_ 32) : IVec S_ 1 :=
  let main_v16 : IVec S4x512 32 := broadcastInDim S4x512 ![] bcast_S_S4x512 main_c_5
  let main_v17 : IVec S4x512 1 := cmpi .sge main_arg1 main_v16
  let main_c_6 : IVec S_ 32 := constantI S_ 32 32128#32
  let main_v18 : IVec S4x512 32 := broadcastInDim S4x512 ![] bcast_S_S4x512 main_c_6
  let main_v19 : IVec S4x512 1 := cmpi .slt main_arg1 main_v18
  let main_v20 : IVec S4x512 1 := andi main_v17 main_v19
  let main_v21 : IVec S4x512 1 := ori main_v15 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v13 main_v22
  main_v23

def fn {F : FTy → Type} [FloatOps F] (main_arg0 : FVec F S4x512x768 .f32) (main_arg1 : IVec S4x512 32) (main_arg2 : FVec F S768 .f32) (main_arg3 : FVec F S32128x768 .f32) : IVec S_ 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_c : IVec S_ 1 := constantI S_ 1 1#1
  let main_v3 : IVec S_ 1 := (fun x v => Host.reduce IntOp.andi x v reducesTo_S4x512x768_S_d0_1_2 h_S_) main_v2 main_c
  let main_v4 : FVec F S768 .f32 := Host.absf main_arg2
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S32128x768 .f32 := Host.absf main_arg3
  let main_cst_2 : FVec F S_ .f32 := constant S_ .f32 0x7F800000#32
  let main_v10 : FVec F S32128x768 .f32 := broadcastInDim S32128x768 ![] bcast_S_S32128x768 main_cst_2
  let main_v11 : IVec S32128x768 1 := cmpf .olt main_v9 main_v10
  let main_c_3 : IVec S_ 1 := constantI S_ 1 1#1
  let main_v12 : IVec S_ 1 := (fun x v => Host.reduce IntOp.andi x v reducesTo_S32128x768_S_d0_1 h_S_) main_v11 main_c_3
  let main_v13 : IVec S_ 1 := andi main_v8 main_v12
  let main_c_4 : IVec S_ 32 := constantI S_ 32 4294967196#32
  let main_v14 : IVec S4x512 32 := broadcastInDim S4x512 ![] bcast_S_S4x512 main_c_4
  let main_v15 : IVec S4x512 1 := cmpi .eq main_arg1 main_v14
  let main_c_5 : IVec S_ 32 := constantI S_ 32 0#32
  fn_part1 (F := F) main_arg1 main_v13 main_v15 main_c_5
-- ==== Kernel.lean ====
abbrev S4x512x768 : Shape := ⟨3, ![4, 512, 768]⟩
abbrev S4x512 : Shape := ⟨2, ![4, 512]⟩
abbrev S768 : Shape := ⟨1, ![768]⟩
abbrev S32128x768 : Shape := ⟨2, ![32128, 768]⟩
abbrev S2048x768 : Shape := ⟨2, ![2048, 768]⟩
abbrev S2048 : Shape := ⟨1, ![2048]⟩
abbrev S2048x1 : Shape := ⟨2, ![2048, 1]⟩
abbrev S1x768 : Shape := ⟨2, ![1, 768]⟩
abbrev S2048x32128 : Shape := ⟨2, ![2048, 32128]⟩
abbrev S1024x768 : Shape := ⟨2, ![1024, 768]⟩
abbrev S1024x1 : Shape := ⟨2, ![1024, 1]⟩
abbrev S512x768 : Shape := ⟨2, ![512, 768]⟩
abbrev S1024x512 : Shape := ⟨2, ![1024, 512]⟩
abbrev S1024 : Shape := ⟨1, ![1024]⟩
abbrev S4x512x32128 : Shape := ⟨3, ![4, 512, 32128]⟩
abbrev S_ : Shape := ⟨0, ![]⟩

abbrev nBuf : Space → Nat
  | .hbm => 27
  | .vmem => 15
  | .smem => 0
  | _ => 0

abbrev bufTy : (tb : Table) → Fin (tcTables nBuf tb) → BufTy
  | .hbm, ⟨0, _⟩ => ⟨S4x512x768, .f32⟩
  | .hbm, ⟨1, _⟩ => ⟨S4x512, .i32⟩
  | .hbm, ⟨2, _⟩ => ⟨S768, .f32⟩
  | .hbm, ⟨3, _⟩ => ⟨S32128x768, .f32⟩
  | .hbm, ⟨4, _⟩ => ⟨S2048x768, .f32⟩
  | .hbm, ⟨5, _⟩ => ⟨S2048, .i32⟩
  | .hbm, ⟨6, _⟩ => ⟨S2048x1, .i32⟩
  | .hbm, ⟨7, _⟩ => ⟨S1x768, .f32⟩
  | .hbm, ⟨8, _⟩ => ⟨S2048x32128, .f32⟩
  | .hbm, ⟨9, _⟩ => ⟨S2048x1, .f32⟩
  | .hbm, ⟨10, _⟩ => ⟨S4x512x32128, .f32⟩
  | .hbm, ⟨11, _⟩ => ⟨S2048, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S_, .f32⟩
  | .hbm, ⟨21, _⟩ => ⟨S2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1x768, .f32⟩
  | .local _ .vmem, ⟨3, _⟩ => ⟨S1024x1, .i32⟩
  | .local _ .vmem, ⟨4, _⟩ => ⟨S1024x1, .i32⟩
  | .local _ .vmem, ⟨5, _⟩ => ⟨S512x768, .f32⟩
  | .local _ .vmem, ⟨6, _⟩ => ⟨S512x768, .f32⟩
  | .local _ .vmem, ⟨7, _⟩ => ⟨S1024x512, .f32⟩
  | .local _ .vmem, ⟨8, _⟩ => ⟨S1024x512, .f32⟩
  | .local _ .vmem, ⟨9, _⟩ => ⟨S1024x1, .f32⟩
  | .local _ .vmem, ⟨10, _⟩ => ⟨S1024x1, .f32⟩
  | .local _ .vmem, ⟨11, _⟩ => ⟨S1024x768, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 63], ![false, false]⟩

def k0_cond2 (i : grid0.Coords) : BitVec 1 :=
  let arg1 : BitVec 32 := BitVec.ofNat 32 (i 1).val
  let c62_i32 : BitVec 32 := 62#32
  let v50 : BitVec 1 := Scalar.cmpi .eq arg1 c62_i32
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x512x768_S2048x768 : S4x512x768.ShapeCasts S2048x768
  shapeCasts_S4x512_S2048 : S4x512.ShapeCasts S2048
  shapeCasts_S2048_S2048x1 : S2048.ShapeCasts S2048x1
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  bitsLt_bf16_f32 : FTy.bits .bf16 < FTy.bits .f32
  packedbf16_S1024x768_S1024x768_0_0 : (Rect.unit (s := S1024x768) ![0, 0] S1024x768.size inb_S1024x768_S1024x768_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x768_S512x768_0_0 : ∀ a, (![0, 0] : Fin 2 → Nat) a + S512x768.size a ≤ S512x768.size a
  h_S512x768 : 0 < S512x768.numel
  inb_S1024x512_S1024x512_0_0 : ∀ a, (![0, 0] : Fin 2 → Nat) a + S1024x512.size a ≤ S1024x512.size a
  h_S1024x512 : 0 < S1024x512.numel
  iota_S1024x512_d1_w32 : S1024x512.Iotas .tc 32 [1]
  reduces_S1024x512_S1024 : S1024x512.Reduces [1] S1024
  broadcasts_S1024x1_S1024x512 : S1024x1.Broadcasts S1024x512
  shapeCasts_S2048x32128_S4x512x32128 : S2048x32128.ShapeCasts S4x512x32128
  shapeCasts_S2048x1_S2048 : S2048x1.ShapeCasts S2048
  bcast_S_S2048 : S_.BroadcastsInDim S2048 (![] : Fin 0 → Fin S2048.rank)
  reducesTo_S2048_S_d0 : S2048.ReducesTo [0] S_
  h_S_ : 0 < S_.numel
  dot_S1024x768_S512x768_S1024x512_1_1_0_0_n_n_wf : DotDims.WF S1024x768 S512x768 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S2048x768.size a
  hwx0_0 : ∀ i : grid0.Coords, EltTy.bits .f32 = 32 ∨ (Rect.block (s := S2048x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x768.size a < S32128x768.size a
  hwx0_3 : ∀ i : grid0.Coords, EltTy.bits .f32 = 32 ∨ (Rect.unit (s := S32128x768) (fun a => cc0_transform_3 i a * S512x768.size a) (fun a => (Pipeline.Clip.of (cc0_transform_3 i a) (S512x768.size a) (S32128x768.size a)).extent (S512x768.size a)) fun a => Pipeline.Clip.inb (Pipeline.Clip.ok_of (hstart0_3 i a))).WholeWords (EltTy.packing .f32)
  hwxs0_3 : ∀ i : grid0.Coords, EltTy.bits .f32 = 32 ∨ (Rect.unit (s := S512x768) (fun _ => 0) (fun a => (Pipeline.Clip.of (cc0_transform_3 i a) (S512x768.size a) (S32128x768.size a)).extent (S512x768.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x512.size a < S2048x32128.size a
  hwx0_4 : ∀ i : grid0.Coords, EltTy.bits .f32 = 32 ∨ (Rect.unit (s := S2048x32128) (fun a => cc0_transform_4 i a * S1024x512.size a) (fun a => (Pipeline.Clip.of (cc0_transform_4 i a) (S1024x512.size a) (S2048x32128.size a)).extent (S1024x512.size a)) fun a => Pipeline.Clip.inb (Pipeline.Clip.ok_of (hstart0_4 i a))).WholeWords (EltTy.packing .f32)
  hwxs0_4 : ∀ i : grid0.Coords, EltTy.bits .f32 = 32 ∨ (Rect.unit (s := S1024x512) (fun _ => 0) (fun a => (Pipeline.Clip.of (cc0_transform_4 i a) (S1024x512.size a) (S2048x32128.size a)).extent (S1024x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S2048x1.size a
  hwx0_5 : ∀ i : grid0.Coords, EltTy.bits .f32 = 32 ∨ (Rect.block (s := S2048x1) S1024x1.size (cc0_transform_5 i) (hinb0_5 i)).WholeWords (EltTy.packing .f32)

variable [Facts₀]

def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_arg3) S512x768.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v4_0) S1024x512.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x512x768 : Shape := ⟨3, ![4, 512, 768]⟩
abbrev S4x512 : Shape := ⟨2, ![4, 512]⟩
abbrev S768 : Shape := ⟨1, ![768]⟩
abbrev S32128x768 : Shape := ⟨2, ![32128, 768]⟩
abbrev S_ : Shape := ⟨0, ![]⟩
abbrev S4x512x1 : Shape := ⟨3, ![4, 512, 1]⟩
abbrev S1x1x768 : Shape := ⟨3, ![1, 1, 768]⟩
abbrev S4x512x32128 : Shape := ⟨3, ![4, 512, 32128]⟩
abbrev S2048x32128 : Shape := ⟨2, ![2048, 32128]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S4x512, .i32⟩
  | .hbm, ⟨2, _⟩ => ⟨S768, .f32⟩
  | .hbm, ⟨3, _⟩ => ⟨S32128x768, .f32⟩
  | .hbm, ⟨4, _⟩ => ⟨S4x512x768, .f32⟩
  | .hbm, ⟨5, _⟩ => ⟨S_, .f32⟩
  | .hbm, ⟨6, _⟩ => ⟨S4x512, .f32⟩
  | .hbm, ⟨7, _⟩ => ⟨S4x512x1, .f32⟩
  | .hbm, ⟨8, _⟩ => ⟨S_, .f32⟩
  | .hbm, ⟨9, _⟩ => ⟨S4x512x1, .f32⟩
  | .hbm, ⟨10, _⟩ => ⟨S4x512x1, .f32⟩
  | .hbm, ⟨11, _⟩ => ⟨S_, .f32⟩
  | .hbm, ⟨12, _⟩ => ⟨S4x512x1, .f32⟩
  | .hbm, ⟨13, _⟩ => ⟨S4x512x1, .f32⟩
  | .hbm, ⟨14, _⟩ => ⟨S4x512x1, .f32⟩
  | .hbm, ⟨15, _⟩ => ⟨S4x512x768, .f32⟩
  | .hbm, ⟨16, _⟩ => ⟨S4x512x768, .f32⟩
  | .hbm, ⟨17, _⟩ => ⟨S1x1x768, .f32⟩
  | .hbm, ⟨18, _⟩ => ⟨S4x512x768, .f32⟩
  | .hbm, ⟨19, _⟩ => ⟨S4x512x768, .f32⟩
  | .hbm, ⟨20, _⟩ => ⟨S4x512x32128, .f32⟩
  | .hbm, ⟨21, _⟩ => ⟨S2048x32128, .f32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048x1, .f32⟩
  | .hbm, ⟨36, _⟩ => ⟨S2048x32128, .f32⟩
  | .hbm, ⟨37, _⟩ => ⟨S2048x32128, .f32⟩
  | .hbm, ⟨38, _⟩ => ⟨S2048x32128, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1, .f32⟩
  | .hbm, ⟨43, _⟩ => ⟨S2048x32128, .f32⟩
  | .hbm, ⟨44, _⟩ => ⟨S2048x32128, .f32⟩
  | .hbm, ⟨45, _⟩ => ⟨S2048x1, .i32⟩
  | .hbm, ⟨46, _⟩ => ⟨S_, .i32⟩
  | .hbm, ⟨47, _⟩ => ⟨S2048x1, .i32⟩
  | .hbm, ⟨48, _⟩ => ⟨S2048x1, .i1⟩
  | .hbm, ⟨49, _⟩ => ⟨S_, .i32⟩
  | .hbm, ⟨50, _⟩ => ⟨S2048x1, .i32⟩
  | .hbm, ⟨51, _⟩ => ⟨S2048x1, .i32⟩
  | .hbm, ⟨52, _⟩ => ⟨S2048x1, .i32⟩
  | .hbm, ⟨53, _⟩ => ⟨S2048x1x1, .i32⟩
  | .hbm, ⟨54, _⟩ => ⟨S1, .i32⟩
  | .hbm, ⟨55, _⟩ => ⟨S_, .i32⟩
  | .hbm, ⟨56, _⟩ => ⟨S2048x1x1, .i32⟩
  | .hbm, ⟨57, _⟩ => ⟨S2048x1x1, .i1⟩
  | .hbm, ⟨58, _⟩ => ⟨S1x1x1, .i32⟩
  | .hbm, ⟨59, _⟩ => ⟨S2048x1x1, .i32⟩
  | .hbm, ⟨60, _⟩ => ⟨S2048x1x1, .i1⟩
  | .hbm, ⟨61, _⟩ => ⟨S2048x1x1, .i1⟩
  | .hbm, ⟨62, _⟩ => ⟨S_, .i1⟩
  | .hbm, ⟨63, _⟩ => ⟨S2048x1, .i1⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S_, .f32⟩
  | .hbm, ⟨72, _⟩ => ⟨S2048, .f32⟩
  | .hbm, ⟨73, _⟩ => ⟨S2048, .f32⟩
  | .hbm, ⟨74, _⟩ => ⟨S_, .f32⟩
  | .hbm, ⟨75, _⟩ => ⟨S_, .f32⟩
  | .hbm, ⟨76, _⟩ => ⟨S2048, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_call1_cst : Ref sig .tc := ⟨.hbm, 30, rfl⟩
abbrev main_call1_v0 : Ref sig .tc := ⟨.hbm, 31, rfl⟩
abbrev main_call1_cst_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_v19 : Ref sig .tc := ⟨.hbm, 44, rfl⟩
abbrev main_v20 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_3 : Ref sig .tc := ⟨.hbm, 70, rfl⟩
abbrev main_call3_v0 : Ref sig .tc := ⟨.hbm, 71, rfl⟩
abbrev main_call3_v1 : Ref sig .tc := ⟨.hbm, 72, rfl⟩
abbrev main_v24 : Ref sig .tc := ⟨.hbm, 73, rfl⟩
abbrev main_cst_4 : Ref sig .tc := ⟨.hbm, 74, rfl⟩
abbrev main_v25 : Ref sig .tc := ⟨.hbm, 75, rfl⟩
abbrev main_v26 : Ref sig .tc := ⟨.hbm, 76, rfl⟩
abbrev main_cst_5 : Ref sig .tc := ⟨.hbm, 77, rfl⟩
abbrev main_v27 : Ref sig .tc := ⟨.hbm, 78, rfl⟩
abbrev main_cst_6 : Ref sig .tc := ⟨.hbm, 79, rfl⟩
abbrev main_v28 : Ref sig .tc := ⟨.hbm, 80, rfl⟩
abbrev main_v29 : Ref sig .tc := ⟨.hbm, 81, rfl⟩

abbrev nD : Nat := 1
abbrev τ : Topo := Topo.v7x

variable {F : FTy → Type} [FloatOps F]

class Facts₀ : Prop where
  reducesTo_S4x512x768_S4x512_d2 : S4x512x768.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x768_0_1_2 : S4x512x1.BroadcastsInDim S4x512x768 (![0, 1, 2] : Fin 3 → Fin S4x512x768.rank)
  bcast_S768_S1x1x768_2 : S768.BroadcastsInDim S1x1x768 (![2] : Fin 1 → Fin S1x1x768.rank)
  bcast_S1x1x768_S4x512x768_0_1_2 : S1x1x768.BroadcastsInDim S4x512x768 (![0, 1, 2] : Fin 3 → Fin S4x512x768.rank)
  shapeCasts_S4x512x32128_S2048x32128 : S4x512x32128.ShapeCasts S2048x32128
  shapeCasts_S4x512_S2048 : S4x512.ShapeCasts S2048
  bcast_S_S2048 : S_.BroadcastsInDim S2048 (![] : Fin 0 → Fin S2048.rank)
  reducesTo_S2048x32128_S2048_d1 : S2048x32128.ReducesTo [1] S2048
  bcast_S2048_S2048x1_0 : S2048.BroadcastsInDim S2048x1 (![0] : Fin 1 → Fin S2048x1.rank)
  bcast_S2048x1_S2048x32128_0_1 : S2048x1.BroadcastsInDim S2048x32128 (![0, 1] : Fin 2 → Fin S2048x32128.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  dot_S4x512x768_S32128x768_S4x512x32128_2_1_01_0_n_n_wf : DotDims.WF S4x512x768 S32128x768 S4x512x32128 [2] [1] [0, 1] [0] [] []
  gather_S2048x32128_S2048x1x1_S2048x1_n_1_0_0_1_2_11_wf : GatherDims.WF S2048x32128 S2048x1x1 S2048x1 [] [1] [0] [1] [0] 2 ![1, 1]

variable [Facts₀]

def dot_S4x512x768_S32128x768_S4x512x32128_2_1_01_0_n_n : DotDims S4x512x768 S32128x768 S4x512x32128 where
  lhsContracting := [2]
  rhsContracting := [1]
  lhsNonContracting := [0, 1]
  rhsNonContracting := [0]
  lhsBatch := []
  rhsBatch := []
  wf := dot_S4x512x768_S32128x768_S4x512x32128_2_1_01_0_n_n_wf
def gather_S2048x32128_S2048x1x1_S2048x1_n_1_0_0_1_2_11 : GatherDims S2048x32128 S2048x1x1 S2048x1 where
  offsetDims := []
  collapsedSliceDims := [1]
  operandBatchingDims := [0]
  startIndicesBatchingDims := [0]
  startIndexMap := [1]
  indexVectorDim := 2
  sliceSizes := ![1, 1]
  wf := gather_S2048x32128_S2048x1x1_S2048x1_n_1_0_0_1_2_11_wf

class Facts : Prop extends Facts₀ where

variable [Facts]
-- ==== Proof.KBase.lean ====
/-
  What the three runs of the kernel body share: the two branch conditions of the body in closed form over the grid (the first
  tile of a row block resets the running statistics, the last one writes the row losses), the staging memrefs the pipeline
  passes at a point, the four scratch memrefs, and the region invariant with the scratch buffers named.
-/
import proofs.«408325_j68298569941243_3_alg».proof.Proof.Gen.Kernel.Frame
import proofs.«408325_j68298569941243_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first branch is taken at the first vocabulary tile of a row block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 63 = 0 :=
  (by decide +kernel : ∀ t : Fin grid0.N, cond0_0 (grid0.coords t) ↔ t.val % 63 = 0)

/-- Its second branch is taken at the last tile. -/
abbrev cond0_1 (i : grid0.Coords) : Prop := k0_cond2 i = 1#1
theorem hcond0_1 : ∀ t : Fin cfg0.N, cond0_1 (grid0.coords t) ↔ t.val % 63 = 62 :=
  (by decide +kernel : ∀ t : Fin grid0.N, cond0_1 (grid0.coords t) ↔ t.val % 63 = 62)

/-- The windows are live at every point except the row-loss output, which is idle (and not written back) off the last tile. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-- Each window's current staging memref at point `t`, as the pipeline passes it, and its wholeness. -/
abbrev ms0_0 (t : Fin cfg0.N) : Memref sig .tc .vmem S1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

/-- The scratch operands: the normalised rows, the running maximum, the running sum, the logit at the label. -/
abbrev scM0_0 : Memref sig .tc .vmem S1024x768 .bf16 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3

/-- Views through which the contents of the outputs' staging buffers and of the scratch are stated. -/
abbrev VO0_4 : View sig .tc .vmem S1024x512 .f32 := (Memref.whole cc0_stg4_0 : Memref sig .tc .vmem S1024x512 .f32).view
abbrev VO0_5 : View sig .tc .vmem S1024x1 .f32 := (Memref.whole cc0_stg5_0 : Memref sig .tc .vmem S1024x1 .f32).view
abbrev VS0_0 : View sig .tc .vmem S1024x768 .bf16 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

/-- The region invariant of the class with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KRunA.lean ====
/-
  The kernel body run whole at the first vocabulary tile of a row block, not the last: on whole staging memrefs and the four scratch memrefs, the inputs at their contents,
  the scratch at anything (this tile resets it), the body runs to a state holding the inputs as they were and every buffer it
  stored into with its stores written over what was there; the stores, as pieces, are the witness the symbolic run finds.
-/
import proofs.«408325_j68298569941243_3_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run at the first vocabulary tile of a row block, not the last. -/
noncomputable def kernelRun0_A (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x768 .f32) (x1 : Vec F S1x768 .f32) (x2 : Vec F S1024x1 .i32) (x3 : Vec F S512x768 .f32) :
    Σ' (L4 : List (View.Piece (Elt F) S1024x512 .f32)) (LS0 : List (View.Piece (Elt F) S1024x768 .bf16)) (LS1 : List (View.Piece (Elt F) S1024x1 .f32)) (LS2 : List (View.Piece (Elt F) S1024x1 .f32)), { LS3 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun xi5 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Hand

end
-- ==== Proof.KRunB.lean ====
/-
  The kernel body run whole at a middle vocabulary tile: on whole staging memrefs and the four scratch memrefs, the inputs at their contents,
  the scratch at what the tile before left, the body runs to a state holding the inputs as they were and every buffer it
  stored into with its stores written over what was there; the stores, as pieces, are the witness the symbolic run finds.
-/
import proofs.«408325_j68298569941243_3_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run at a middle vocabulary tile. -/
noncomputable def kernelRun0_B (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) :
    Σ' (L4 : List (View.Piece (Elt F) S1024x512 .f32)) (LS1 : List (View.Piece (Elt F) S1024x1 .f32)) (LS2 : List (View.Piece (Elt F) S1024x1 .f32)), { LS3 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun xi5 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]
    · iexists _; isplitr; · ipureintro; exact harg8.read_unread _
      iexact HS0
    isplitl [HS1]; · iexists _; iexact HS1
    isplitl [HS2]; · iexists _; iexact HS2
    iexists _; iexact HS3

end Cert.Kernel.Hand

end
-- ==== Proof.KRunC.lean ====
/-
  The kernel body run whole at the last vocabulary tile, not the first: on whole staging memrefs and the four scratch memrefs, the inputs at their contents,
  the scratch at what the tile before left, the body runs to a state holding the inputs as they were and every buffer it
  stored into with its stores written over what was there; the stores, as pieces, are the witness the symbolic run finds.
-/
import proofs.«408325_j68298569941243_3_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The run at the last vocabulary tile, not the first. -/
noncomputable def kernelRun0_C (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) :
    Σ' (L4 : List (View.Piece (Elt F) S1024x512 .f32)) (L5 : List (View.Piece (Elt F) S1024x1 .f32)) (LS1 : List (View.Piece (Elt F) S1024x1 .f32)) (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _; isplitr; · ipureintro; exact harg8.read_unread _
      iexact HS0
    isplitl [HS1]; · iexists _; iexact HS1
    isplitl [HS2]; · iexists _; iexact HS2
    iexists _; iexact HS3

end Cert.Kernel.Hand

end
-- ==== Proof.KFrame.lean ====
/-
  The frame of the word-level program: every weakly fair execution of @main terminates without a fault and leaves the
  four argument arrays as launched. Nothing is said of values: the two outputs of the kernel are forgotten, the
  scratch the body carries between grid points is owned at some contents throughout, and the weight tile's staging
  buffer, whose blocks overhang the array at the last vocabulary tile, is stated only on the part a fetch fills.
-/
import proofs.«408325_j68298569941243_3_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two output windows are forgotten: nothing of what the kernel leaves in them is named. -/
def forgets0 : Fin 6 → Bool := fun w => w.val == 4 || w.val == 5

/-- The proof data on core `c`: the arrays as the region finds them; after the body each of the first three inputs'
    buffers at its block, the weight tile's buffer at its block on the part inside the array (anything past the
    array's end), the outputs unnamed; the invariant the scoped rest at some contents and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (cfg0.win 3).fill (cfg0.grid.coords t) (fun _ => Classical.arbitrary _) (iblk m c 3 t)
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = (cfg0.win 3).fill (cfg0.grid.coords t) (fun _ => Classical.arbitrary _) (iblk m c 3 t) := by
  dsimp only [dats]

/-- Each of the first three inputs' current staging buffers holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The weight tile is fetched at every point: its buffer holds the block where the fetch filled it and what it held
    elsewhere. -/
theorem before0_3 (c : Dev nD) (t : Fin cfg0.N) (d) :
    (dats m 0 c).before 3 t d = (cfg0.win 3).fill (cfg0.grid.coords t) d (iblk m c 3 t) := by
  unfold Dat.before
  rw [if_pos (fetch0_3 t)]
  unfold Dat.fetched Dat.blockOf iblk
  rw [A_eq]

/-! ## The body obligation, at a generic point -/

/-- What the body leaves in a buffer it stored into, its contents unnamed, is the buffer owned at some contents. -/
theorem owns_some_of_writes (c : Dev nD) {sh : Shape} {e : EltTy} (M : Memref sig .tc .vmem sh e)
    (L : List (View.Piece (Elt F) sh e)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  iexists _
  iapply owns_intro
  iexact H

/-- What the body is called with at point `t`, the windows one by one: the inputs' buffers at what they then hold, the
    forgotten outputs' at anything, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (∃ d, owns (c : Thread nD τ) (ms0_4 t) fullShare d)
    ∗ (∃ d, owns (c : Thread nD τ) (ms0_5 t) fullShare d))

/-- The first three inputs are never idle and their blocks tile their arrays: each buffer is left at its block. -/
theorem leaves0_0 (c : Dev nD) (t : Fin cfg0.N) :
    (dats m 0 c).leaves 0 t = owns (c : Thread nD τ) (ms0_0 t) fullShare (iblk m c 0 t) := by
  unfold Dat.leaves; rw [liveAt0_0 t, after0_0]
theorem leaves0_1 (c : Dev nD) (t : Fin cfg0.N) :
    (dats m 0 c).leaves 1 t = owns (c : Thread nD τ) (ms0_1 t) fullShare (iblk m c 1 t) := by
  unfold Dat.leaves; rw [liveAt0_1 t, after0_1]
theorem leaves0_2 (c : Dev nD) (t : Fin cfg0.N) :
    (dats m 0 c).leaves 2 t = owns (c : Thread nD τ) (ms0_2 t) fullShare (iblk m c 2 t) := by
  unfold Dat.leaves; rw [liveAt0_2 t, after0_2]
/-- The weight tile's buffer is left at its block where a fetch fills it, at anything elsewhere. -/
theorem leaves0_3 (c : Dev nD) (t : Fin cfg0.N) :
    (dats m 0 c).leaves 3 t
      = iprop(∃ d, owns (c : Thread nD τ) (ms0_3 t) fullShare ((cfg0.win 3).fill (cfg0.grid.coords t) d (iblk m c 3 t))) := by
  unfold Dat.leaves; rw [liveAt0_3 t, after0_3, Window.cut_fill]; rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0_0, leaves0_1, leaves0_2, leaves0_3]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl, PhiA0_eq]
  have hN : t.val < 126 := lt_of_lt_of_eq t.isLt (show cfg0.N = 126 from N_0)
  by_cases h0 : t.val % 63 = 0
  · have h1 : ¬t.val % 63 = 62 := by omega
    iintro ⟨⟨⟨HS0, HS1, HS2, HS3⟩, Hg⟩, Ho, ⟨%d0, H0⟩, ⟨%d1, H1⟩, ⟨%d2, H2⟩, ⟨%d3, H3⟩, H4, ⟨%d5, H5⟩⟩
    iapply ((kernelRun0_A c (grid0.coords t) _ _ _ _ _ _ _ _ _ _ _ _ _ _ _ _ _ _ _ _ ((hcond0_0 t).mpr h0) (fun h => h1 ((hcond0_1 t).mp h))
      (iblk m c 0 t) (iblk m c 1 t) (iblk m c 2 t) _).2.2.2.2.2 d5 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitr [Hg]
      · isplitl [HS0]; · iapply owns_some_of_writes; iexact HS0
        isplitl [HS1]; · iapply owns_some_of_writes; iexact HS1
        isplitl [HS2]; · iapply owns_some_of_writes; iexact HS2
        iapply owns_some_of_writes; iexact HS3
      · iexact Hg
    isplitl [Ho]; · iexact Ho
    isplitl [H0]; · iexact H0
    isplitl [H1]; · iexact H1
    isplitl [H2]; · iexact H2
    isplitl [H3]; · iexists _; iexact H3
    isplitl [H4]; · iapply owns_some_of_writes; iexact H4
    iexists _; iexact H5
  · by_cases h1 : t.val % 63 = 62
    · iintro ⟨⟨⟨⟨%xs0, HS0⟩, ⟨%xs1, HS1⟩, ⟨%xs2, HS2⟩, ⟨%xs3, HS3⟩⟩, Hg⟩, Ho, ⟨%d0, H0⟩, ⟨%d1, H1⟩, ⟨%d2, H2⟩, ⟨%d3, H3⟩, H4, H5⟩
      iapply ((kernelRun0_C c (grid0.coords t) _ _ _ _ _ _ _ _ _ _ _ _ _ _ _ _ _ _ _ _ (fun h => h0 ((hcond0_0 t).mp h)) ((hcond0_1 t).mpr h1)
        (iblk m c 0 t) (iblk m c 1 t) (iblk m c 2 t) _ xs0 xs1 xs2 xs3).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitr [Hg]
        · isplitl [HS0]; · iexists _; iexact HS0
          isplitl [HS1]; · iapply owns_some_of_writes; iexact HS1
          isplitl [HS2]; · iapply owns_some_of_writes; iexact HS2
          iapply owns_some_of_writes; iexact HS3
        · iexact Hg
      isplitl [Ho]; · iexact Ho
      isplitl [H0]; · iexact H0
      isplitl [H1]; · iexact H1
      isplitl [H2]; · iexact H2
      isplitl [H3]; · iexists _; iexact H3
      isplitl [H4]; · iapply owns_some_of_writes; iexact H4
      iapply owns_some_of_writes; iexact H5
    · iintro ⟨⟨⟨⟨%xs0, HS0⟩, ⟨%xs1, HS1⟩, ⟨%xs2, HS2⟩, ⟨%xs3, HS3⟩⟩, Hg⟩, Ho, ⟨%d0, H0⟩, ⟨%d1, H1⟩, ⟨%d2, H2⟩, ⟨%d3, H3⟩, H4, ⟨%d5, H5⟩⟩
      iapply ((kernelRun0_B c (grid0.coords t) _ _ _ _ _ _ _ _ _ _ _ _ _ _ _ _ _ _ _ _ (fun h => h0 ((hcond0_0 t).mp h)) (fun h => h1 ((hcond0_1 t).mp h))
        (iblk m c 0 t) (iblk m c 1 t) (iblk m c 2 t) _ xs0 xs1 xs2 xs3).2.2.2.2 d5 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitr [Hg]
        · isplitl [HS0]; · iexists _; iexact HS0
          isplitl [HS1]; · iapply owns_some_of_writes; iexact HS1
          isplitl [HS2]; · iapply owns_some_of_writes; iexact HS2
          iapply owns_some_of_writes; iexact HS3
        · iexact Hg
      isplitl [Ho]; · iexact Ho
      isplitl [H0]; · iexact H0
      isplitl [H1]; · iexact H1
      isplitl [H2]; · iexact H2
      isplitl [H3]; · iexists _; iexact H3
      isplitl [H4]; · iapply owns_some_of_writes; iexact H4
      iexists _; iexact H5

/-- The library's body obligation, at every point. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

/-- The buffers the host lines after the region write: each line's own result. -/
def T0 : Finset (Ref sig .tc) :=
  {main_v5, main_v6, main_c, main_v7, main_v8, main_cst, main_call0_v0, main_call0_v1, main_v9, main_cst_0, main_v10, main_v11,
    main_cst_1, main_v12, main_cst_2, main_v13, main_v14}

set_option maxHeartbeats 1000000 in
/-- Every buffer a host line after the region writes is among them. -/
theorem sfx_T : ∀ ops ∈ ([hostOps1, hostOps1_1, hostOps1_2] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl | rfl | rfl
  · simp only [hostOps1, List.mem_cons, List.mem_nil_iff, or_false] at hop
    rcases hop with rfl | rfl | rfl | rfl | rfl | rfl
    all_goals
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_1, List.mem_cons, List.mem_nil_iff, or_false] at hop
    rcases hop with rfl | rfl | rfl
    all_goals
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_2, List.mem_cons, List.mem_nil_iff, or_false] at hop
    rcases hop with rfl | rfl | rfl | rfl | rfl | rfl | rfl | rfl
    all_goals
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide

set_option backward.isDefEq.respectTransparency.types false in
/-- From any memory with zero counters every weakly fair execution of @main terminates, and every final state has every
    input array of the pipeline at its contents at the region's entry, nothing stated of the forgotten outputs' arrays, and
    every other unscoped buffer the host lines after the region do not write at its contents at the region's entry. -/
theorem run_main : θ_run defs (onTc (τ := τ) (main (F := F))) (s₀ m ρ)
    (Pipeline.RDat.FramePostR (cfgs 0) (fun c => (dats m 0 c).toRForget forgets0) T0 (fun c b => V0 m c (Proc.devRef .tc b))) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1, hostOps1_1, hostOps1_2]) (hsub := sfx_sub) (hfresh := sfx_fresh)
    (hkeep := sfx_keeps) (hT := sfx_T) (hmain := hmain m Variants.none) (hA := A_eq m) (hΦ := fun _ _ => rfl)

/-- The frame: every weakly fair execution of @main from any memory with zero counters terminates, and the four
    argument arrays end as launched: the weight array, an input of the pipeline, by the run's first clause; the three
    the region reaches only through reshaped copies by its second, no host line writing them. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((A_eq m c 3).trans (V_main_arg3 m c))⟩) (run_main m ρ)

end Cert.Kernel.Hand

end
-- ==== Proof.IBase.lean ====
/-
  What the three runs of the kernel body share: the two branch conditions of the body in closed form over the grid (the first
  tile of a row block resets the running statistics, the last one writes the row losses), the staging memrefs the pipeline
  passes at a point, the four scratch memrefs, and the region invariant with the scratch buffers named.
-/
import proofs.«408325_j68298569941243_3_alg».proof.Proof.Gen.KernelIdeal.Frame
import proofs.«408325_j68298569941243_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The body's first branch is taken at the first vocabulary tile of a row block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 63 = 0 :=
  (by decide +kernel : ∀ t : Fin grid0.N, cond0_0 (grid0.coords t) ↔ t.val % 63 = 0)

/-- Its second branch is taken at the last tile. -/
abbrev cond0_1 (i : grid0.Coords) : Prop := k0_cond2 i = 1#1
theorem hcond0_1 : ∀ t : Fin cfg0.N, cond0_1 (grid0.coords t) ↔ t.val % 63 = 62 :=
  (by decide +kernel : ∀ t : Fin grid0.N, cond0_1 (grid0.coords t) ↔ t.val % 63 = 62)

/-- The windows are live at every point except the row-loss output, which is idle (and not written back) off the last tile. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-- Each window's current staging memref at point `t`, as the pipeline passes it, and its wholeness. -/
abbrev ms0_0 (t : Fin cfg0.N) : Memref sig .tc .vmem S1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

/-- The scratch operands: the normalised rows, the running maximum, the running sum, the logit at the label. -/
abbrev scM0_0 : Memref sig .tc .vmem S1024x768 .bf16 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3

/-- Views through which the contents of the outputs' staging buffers and of the scratch are stated. -/
abbrev VO0_4 : View sig .tc .vmem S1024x512 .f32 := (Memref.whole cc0_stg4_0 : Memref sig .tc .vmem S1024x512 .f32).view
abbrev VO0_5 : View sig .tc .vmem S1024x1 .f32 := (Memref.whole cc0_stg5_0 : Memref sig .tc .vmem S1024x1 .f32).view
abbrev VS0_0 : View sig .tc .vmem S1024x768 .bf16 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

/-- The region invariant of the class with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Spec.lean ====
/-
  The mathematics of the head, stated once over plain index types and the extended reals, with no program in sight.

  A row `r` of the 2048 hidden rows is normalised by the reciprocal root of its mean square plus `eps` and scaled by the gain;
  its logit against vocabulary row `v` is the inner product with that row of the weight table. The loss of a row is the
  log-sum-exp of its 32128 logits less the logit at its label. Two spellings of that loss are defined:

  * `nllK`: the running form, over 63 tiles of 512 columns. It carries a running maximum `m`, a running sum `l` of
    exponentials taken relative to `m` (rescaled by `exp (m_old - m_new)` whenever the maximum moves) and the logit found at the
    label so far; columns past the vocabulary's end in the last tile read `⊥`, so they neither raise the maximum nor add to the sum.
  * `nllR`: the one-pass form, maximum first, then the sum of exponentials of the shifted logits, then the shifted logit at the
    label less the logarithm of that sum, negated.

  That the two agree on finite logits and an in-range label is the bridge's business (another module).
-/
import Idealize.ShloMosaic.PureOps.Ideal
import Idealize.ShloMosaic.Lib.ValueIdx

noncomputable section

namespace Cert.Spec

open Idealize.ShloMosaic

/-- The vocabulary's size. -/
abbrev NV : ℕ := 32128

/-- The f32 word of `1e-6` and of `768`, as extended reals. -/
def eps : EReal := Ideal.ofBits .f32 0x358637BD#32
def c768 : EReal := Ideal.ofBits .f32 0x44400000#32

section Logits

variable (X : Fin 2048 → Fin 768 → EReal) (g : Fin 768 → EReal) (W : Fin NV → Fin 768 → EReal)

/-- The reciprocal root of row `r`'s mean square plus `eps`. -/
def rstd (r : Fin 2048) : EReal := Ideal.rsqrt (Ideal.div (∑ d : Fin 768, X r d * X r d) c768 + eps)

/-- The normalised, gain-scaled row. -/
def xn (r : Fin 2048) (d : Fin 768) : EReal := X r d * rstd X r * g d

/-- The logit of row `r` against vocabulary row `v`. -/
def logit (r : Fin 2048) (v : Fin NV) : EReal := ∑ d : Fin 768, xn X g r d * W v d

end Logits

section Loss

variable (z : Fin NV → EReal) (lb : BitVec 32)

/-- Column `j` of tile `k` of a row's logits, `⊥` past the vocabulary's end. -/
def zm (k : ℕ) (j : Fin 512) : EReal := if h : 512 * k + j.val < NV then z ⟨512 * k + j.val, h⟩ else ⊥

/-- What column `j` of tile `k` adds to the logit found at the label: the logit when the label's word is that column, else nothing. -/
def tg (k : ℕ) (j : Fin 512) : EReal :=
  if h : 512 * k + j.val < NV then (if lb.toNat = 512 * k + j.val then z ⟨512 * k + j.val, h⟩ else 0) else 0

/-- The running state: maximum, rescaled sum of exponentials, logit at the label. -/
structure St where
  m : EReal
  l : EReal
  t : EReal

/-- One tile's update of the running state. -/
def step (k : ℕ) (s : St) : St :=
  ⟨max s.m (Finset.univ.fold max ⊥ (zm z k)),
   Ideal.exp (s.m - max s.m (Finset.univ.fold max ⊥ (zm z k))) * s.l
     + ∑ j : Fin 512, Ideal.exp (zm z k j - max s.m (Finset.univ.fold max ⊥ (zm z k))),
   s.t + ∑ j : Fin 512, tg z lb k j⟩

/-- The state after `k` tiles, from maximum `⊥` and both sums `0`. -/
def st : ℕ → St
  | 0 => ⟨⊥, 0, 0⟩
  | k + 1 => step z lb k (st k)

/-- The running form of a row's loss, after all 63 tiles. -/
def nllK : EReal := (st z lb 63).m + Ideal.log (st z lb 63).l - (st z lb 63).t

/-- The one-pass form of a row's loss at label column `i`. -/
def nllR (i : Fin NV) : EReal :=
  -((z i - max ⊥ (Finset.univ.fold max ⊥ z))
    - Ideal.log (0 + ∑ v : Fin NV, Ideal.exp (z v - max ⊥ (Finset.univ.fold max ⊥ z))))

end Loss

section Arrays

open Idealize.ShloMosaic.ValueIdx

/-- Row `r` of the 2048 flattened rows is batch `r / 512`, position `r % 512`; and back. -/
def rowB (r : Fin 2048) : Fin 4 := ⟨r.val / 512, by omega⟩
def rowS (r : Fin 2048) : Fin 512 := ⟨r.val % 512, by omega⟩
def rowOf (b : Fin 4) (s : Fin 512) : Fin 2048 := ⟨b.val * 512 + s.val, by omega⟩

/-- The argument arrays read as the plain tables the formulas above take. -/
def Xof (a0 : (⟨3, ![4, 512, 768]⟩ : Shape).Idx → EReal) : Fin 2048 → Fin 768 → EReal := fun r d => a0 (ix3 (rowB r) (rowS r) d)
def gof (a2 : (⟨1, ![768]⟩ : Shape).Idx → EReal) : Fin 768 → EReal := fun d => a2 (ix1 d)
def Wof (a3 : (⟨2, ![32128, 768]⟩ : Shape).Idx → EReal) : Fin NV → Fin 768 → EReal := fun v d => a3 (ix2 v d)
def labof (a1 : (⟨2, ![4, 512]⟩ : Shape).Idx → BitVec 32) : Fin 2048 → BitVec 32 := fun r => a1 (ix2 (rowB r) (rowS r))

/-- The scores result: entry (b, s, v) is row `512 b + s`'s logit against vocabulary row `v`. -/
def predArr (a0 : (⟨3, ![4, 512, 768]⟩ : Shape).Idx → EReal) (a2 : (⟨1, ![768]⟩ : Shape).Idx → EReal)
    (a3 : (⟨2, ![32128, 768]⟩ : Shape).Idx → EReal) : (⟨3, ![4, 512, 32128]⟩ : Shape).Idx → EReal :=
  fun i => logit (Xof a0) (gof a2) (Wof a3) (rowOf (i 0) (i 1)) (i 2)

/-- The word of the ignored label, `-100`. -/
def ign : BitVec 32 := 4294967196#32

/-- The mean of the rows' losses over the rows whose label is not the ignored one (over one row if there is none). -/
def lossArr (nll : Fin 2048 → EReal) (lab : Fin 2048 → BitVec 32) : EReal :=
  Ideal.div (0 + ∑ r : Fin 2048, if lab r = ign then 0 else nll r)
    (max (0 + ∑ r : Fin 2048, if lab r = ign then (0 : EReal) else 1) 1)

/-- A label is the ignored word or a column of the vocabulary. -/
def LabOK (lab : Fin 2048 → BitVec 32) : Prop := ∀ r, lab r = ign ∨ (lab r).toNat < NV

end Arrays

end Cert.Spec

end
-- ==== Proof.IBlocks.lean ====
/-
  What the body finds in the input windows' staging buffers, entry by entry, in the specification's tables: row `p` of the hidden
  block at point `t` is row `1024 (t / 63) + p` of the 2048 flattened rows; the gain block is the gain; the label block holds
  those rows' labels; row `j` of the weight tile at point `t` is vocabulary row `512 (t % 63) + j` wherever that row exists,
  whatever the buffer holds past the table's end.
-/
import proofs.«408325_j68298569941243_3_alg».proof.Proof.IBase
import proofs.«408325_j68298569941243_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- Row `p` of point `t`'s row block, among the 2048 flattened rows. -/
def rowAt (t : Fin cfg0.N) (p : Fin 1024) : Fin 2048 :=
  ⟨1024 * (t.val / 63) + p.val, by have h1 := t.isLt; have h2 : cfg0.N = 126 := N_0; omega⟩

/-- The grid point's coordinates: row block `t / 63`, vocabulary tile `t % 63`. -/
theorem coords_row (t : Fin cfg0.N) : ((grid0.coords t) 0).val = t.val / 63 :=
  (by decide +kernel : ∀ t : Fin grid0.N, ((grid0.coords t) 0).val = t.val / 63) t
theorem coords_tile (t : Fin cfg0.N) : ((grid0.coords t) 1).val = t.val % 63 :=
  (by decide +kernel : ∀ t : Fin grid0.N, ((grid0.coords t) 1).val = t.val % 63) t

/-- The four input windows' block indices over the grid: the hidden rows and the labels move with the row block, the gain stays,
    the weight tile moves with the vocabulary tile; no window moves along its second axis. -/
theorem idx_facts : ∀ t : Fin cfg0.N, win0_0.index t (0 : Fin 2) = t.val / 63 ∧ win0_0.index t (1 : Fin 2) = 0
    ∧ win0_1.index t (0 : Fin 2) = 0 ∧ win0_1.index t (1 : Fin 2) = 0
    ∧ win0_2.index t (0 : Fin 2) = t.val / 63 ∧ win0_2.index t (1 : Fin 2) = 0
    ∧ win0_3.index t (0 : Fin 2) = t.val % 63 ∧ win0_3.index t (1 : Fin 2) = 0 :=
  (by decide +kernel : ∀ t : Fin grid0.N, _)

/-- What the weight tile's fetch moves: the rows of the tile that lie inside the table (all 512, or the 384 left at the last
    tile), each of them whole. -/
theorem xsize3_facts : ∀ t : Fin cfg0.N, win0_3.xsize (grid0.coords t) (0 : Fin 2) = min 512 (32128 - 512 * (t.val % 63))
    ∧ win0_3.xsize (grid0.coords t) (1 : Fin 2) = 768 :=
  (by decide +kernel : ∀ t : Fin grid0.N, _)

/-- The hidden array the region finds: the [4, 512, 768] argument in row-major order as [2048, 768]. -/
theorem V_main_v0 (c : Dev nD) :
    (V m c main_v0 : S2048x768.Idx → EReal)
      = shapeCast S2048x768 (m ((c.tc : Thread nD τ).loc main_arg0) : S4x512x768.Idx → EReal) shapeCasts_S4x512x768_S2048x768 := by
  dsimp only [Gen.V, Gen.V0]
  simp only [hostOps0, List.flatten_cons, List.flatten_nil, List.append_nil, List.cons_append, List.nil_append]
  after_results
  rfl

/-- The label array the region finds: the [4, 512] argument as 2048 rows, then as a [2048, 1] column. -/
theorem V_main_v2 (c : Dev nD) :
    (V m c main_v2 : S2048x1.Idx → BitVec 32)
      = shapeCast S2048x1 (shapeCast S2048 (m ((c.tc : Thread nD τ).loc main_arg1) : S4x512.Idx → BitVec 32) shapeCasts_S4x512_S2048)
          shapeCasts_S2048_S2048x1 := by
  dsimp only [Gen.V, Gen.V0]
  simp only [hostOps0, List.flatten_cons, List.flatten_nil, List.append_nil, List.cons_append, List.nil_append]
  after_results
  rfl

/-- The gain array the region finds: the [768] argument as a [1, 768] row. -/
theorem V_main_v3 (c : Dev nD) :
    (V m c main_v3 : S1x768.Idx → EReal) = shapeCast S1x768 (m ((c.tc : Thread nD τ).loc main_arg2) : S768.Idx → EReal) shapeCasts_S768_S1x768 := by
  dsimp only [Gen.V, Gen.V0]
  simp only [hostOps0, List.flatten_cons, List.flatten_nil, List.append_nil, List.cons_append, List.nil_append]
  after_results
  rfl

/-- The hidden block, entry (p, d). A block's entry sits in its array at block index × block size + the coordinate inside the
    block; row 1024 (t / 63) + p of [2048, 768] and entry (r / 512, r % 512) of [4, 512, 768] have one row-major position. -/
theorem blk0_apply (c : Dev nD) (t : Fin cfg0.N) (p : Fin 1024) (d : Fin 768) :
    (iblk m c 0 t : S1024x768.Idx → EReal) (ix2 p d) = Xof (m ((c.tc : Thread nD τ).loc main_arg0)) (rowAt t p) d := by
  unfold iblk
  show (V m c main_v0 : S2048x768.Idx → EReal) (((cfg0.win 0).blk t).view.emb (ix2 p d)) = _
  refine (congrFun (V_main_v0 m c) _).trans ?_
  refine shapeCast_apply (s := S4x512x768) (t := S2048x768) _ shapeCasts_S4x512x768_S2048x768 _
    (ix3 (rowB (rowAt t p)) (rowS (rowAt t p)) d) ?_
  rw [Shape.rowMajor_val_three, Shape.rowMajor_val_two]
  obtain ⟨e0, e1, -, -, -, -, -, -⟩ := idx_facts t
  show ((1024 * (t.val / 63) + p.val) / 512 * 512 + (1024 * (t.val / 63) + p.val) % 512) * 768 + d.val
    = (win0_0.index t (0 : Fin 2) * 1024 + 1 * p.val) * 768 + (win0_0.index t (1 : Fin 2) * 768 + 1 * d.val)
  rw [e0, e1]
  omega

/-- The gain block, entry (0, d). -/
theorem blk1_apply (c : Dev nD) (t : Fin cfg0.N) (d : Fin 768) :
    (iblk m c 1 t : S1x768.Idx → EReal) (ix2 (0 : Fin 1) d) = gof (m ((c.tc : Thread nD τ).loc main_arg2)) d := by
  unfold iblk
  show (V m c main_v3 : S1x768.Idx → EReal) (((cfg0.win 1).blk t).view.emb (ix2 (0 : Fin 1) d)) = _
  refine (congrFun (V_main_v3 m c) _).trans ?_
  refine shapeCast_apply (s := S768) (t := S1x768) _ shapeCasts_S768_S1x768 _ (ix1 d) ?_
  rw [Shape.rowMajor_val_one, Shape.rowMajor_val_two]
  obtain ⟨-, -, e0, e1, -, -, -, -⟩ := idx_facts t
  show d.val = (win0_1.index t (0 : Fin 2) * 1 + 1 * 0) * 768 + (win0_1.index t (1 : Fin 2) * 768 + 1 * d.val)
  omega

/-- The label block, entry (p, 0): through the column and the 2048 rows back to entry (r / 512, r % 512) of the argument. -/
theorem blk2_apply (c : Dev nD) (t : Fin cfg0.N) (p : Fin 1024) :
    (iblk m c 2 t : S1024x1.Idx → BitVec 32) (ix2 p (0 : Fin 1)) = labof (m ((c.tc : Thread nD τ).loc main_arg1)) (rowAt t p) := by
  unfold iblk
  show (V m c main_v2 : S2048x1.Idx → BitVec 32) (((cfg0.win 2).blk t).view.emb (ix2 p (0 : Fin 1))) = _
  refine (congrFun (V_main_v2 m c) _).trans ?_
  obtain ⟨-, -, -, -, e0, e1, -, -⟩ := idx_facts t
  refine (shapeCast_apply (s := S2048) (t := S2048x1) _ shapeCasts_S2048_S2048x1 _ (ix1 (rowAt t p)) ?_).trans ?_
  · rw [Shape.rowMajor_val_one, Shape.rowMajor_val_two]
    show 1024 * (t.val / 63) + p.val = (win0_2.index t (0 : Fin 2) * 1024 + 1 * p.val) * 1 + (win0_2.index t (1 : Fin 2) * 1 + 1 * 0)
    rw [e0, e1]
    omega
  · refine shapeCast_apply (s := S4x512) (t := S2048) _ shapeCasts_S4x512_S2048 _ (ix2 (rowB (rowAt t p)) (rowS (rowAt t p))) ?_
    rw [Shape.rowMajor_val_two, Shape.rowMajor_val_one]
    show (1024 * (t.val / 63) + p.val) / 512 * 512 + (1024 * (t.val / 63) + p.val) % 512 = 1024 * (t.val / 63) + p.val
    omega

/-- The weight tile as the buffer holds it after the fetch, entry (j, d), at a row of the tile that lies inside the table: such a
    row is among the rows the fetch moves, so the buffer holds there the table's row 512 (t % 63) + j. -/
theorem blk3_apply (c : Dev nD) (t : Fin cfg0.N) (dd : S512x768.Idx → EReal) (j : Fin 512) (h : 512 * (t.val % 63) + j.val < NV)
    (d : Fin 768) :
    (win0_3.fill (grid0.coords t) dd (iblk m c 3 t) : S512x768.Idx → EReal) (ix2 j d)
      = Wof (m ((c.tc : Thread nD τ).loc main_arg3)) ⟨512 * (t.val % 63) + j.val, h⟩ d := by
  have h' : 512 * (t.val % 63) + j.val < 32128 := h
  obtain ⟨x0, x1⟩ := xsize3_facts t
  have hm : win0_3.moved (grid0.coords t) (ix2 j d) = true := (win0_3.moved_iff _ _).mpr (fun a => by
    match a with
    | ⟨0, _⟩ => show j.val < win0_3.xsize (grid0.coords t) (0 : Fin 2); rw [x0]; omega
    | ⟨1, _⟩ => show d.val < win0_3.xsize (grid0.coords t) (1 : Fin 2); rw [x1]; exact d.isLt)
  unfold Window.fill
  rw [dif_pos hm]
  unfold iblk
  obtain ⟨-, -, -, -, -, -, e0, e1⟩ := idx_facts t
  refine (congrFun (V_main_arg3 m c) _).trans ?_
  refine congrArg (m ((c.tc : Thread nD τ).loc main_arg3) : S32128x768.Idx → EReal) (funext fun a => Fin.ext ?_)
  match a with
  | ⟨0, _⟩ =>
    show win0_3.index t (0 : Fin 2) * 512 + 1 * j.val = 512 * (t.val % 63) + j.val
    rw [e0]; omega
  | ⟨1, _⟩ =>
    show win0_3.index t (1 : Fin 2) * 768 + 1 * d.val = d.val
    rw [e1]; omega

end Cert.KernelIdeal.Hand

end
-- ==== Proof.KPay.lean ====
/-
  The kernel body's arithmetic read at an index, at the extended reals: the normalised row, a tile of logits as inner products,
  and one tile's update of the running maximum, the running sum of exponentials and the logit at the label, each in the
  specification's words. A column past the vocabulary's end contributes nothing whatever the weight buffer holds there.
-/
import proofs.«408325_j68298569941243_3_alg».proof.Proof.Gen.KernelIdeal.Skeleton
import proofs.«408325_j68298569941243_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Pay

open Cert.KernelIdeal Cert.KernelIdeal.Gen Cert.Spec
open Idealize.ShloMosaic Idealize.ShloMosaic.TcCoe Idealize.ShloMosaic.ValueIdx

/-! ### Layout operations at an index: the keepdims column forms, and the lane reductions of a matrix -/

/-- A vector cast to a one-column matrix reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over b columns reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the columns inserts column k into at row p is (p, k). -/
theorem lift_ix1 {a b : ℕ} (h : (⟨2, ![a, b]⟩ : Shape).Reduces [1] ⟨1, ![a]⟩) (p : Fin a) (k : Fin b) :
    h.lift (ix1 p) k = ix2 p k := by
  funext ax; refine Fin.ext ?_
  match ax with
  | ⟨0, _⟩ => rfl
  | ⟨1, _⟩ => rfl

/-- A sum along the columns of a matrix, read at row p. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_ix1 h p k)

/-- A maximum along the columns of a matrix, read at row p. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have : (src ∘ h.lift (ix1 p)) = fun k : Fin b => src (ix2 p k) := funext fun k => congrArg src (lift_ix1 h p k)
  rw [this]; rfl

/-- The word of minus infinity is ⊥. -/
theorem ofBits_neg_inf : Ideal.ofBits .f32 0xFF800000#32 = (⊥ : EReal) := by simp [Ideal.ofBits, Ideal.ieee]

/-- The reset values: the running maximum starts at ⊥, both sums at 0. -/
theorem pay5_apply (y : S1024x1.Idx) : k0_pay5 (F := Ideal) y = (⊥ : EReal) := by
  unfold k0_pay5
  simp only [shapeCast_self]
  exact ofBits_neg_inf
theorem pay6_apply (y : S1024x1.Idx) : k0_pay6 (F := Ideal) y = (0 : EReal) := by
  unfold k0_pay6
  simp only [shapeCast_self]
  exact Ideal.ofBits_zero_f32
theorem pay7_apply (y : S1024x1.Idx) : k0_pay7 (F := Ideal) y = (0 : EReal) := by
  unfold k0_pay7
  simp only [shapeCast_self]
  exact Ideal.ofBits_zero_f32

/-- The normalised, gain-scaled row block: entry (p, d) is x · rsqrt (mean square + eps) · gain. -/
theorem pay4_apply (xv : Vec Ideal S1024x768 .f32) (gv : Vec Ideal S1x768 .f32) (p : Fin 1024) (d : Fin 768) :
    (k0_pay4 (F := Ideal) xv gv (ix2 p d) : EReal)
      = (xv (ix2 p d) : EReal) * Ideal.rsqrt (Ideal.div (∑ d' : Fin 768, (xv (ix2 p d') : EReal) * (xv (ix2 p d') : EReal)) c768 + eps)
          * (gv (ix2 (0 : Fin 1) d) : EReal) := by
  unfold k0_pay4
  simp only [shapeCast_self]
  rw [truncf_apply, mulf_apply, mulf_apply, broadcastTo_1b_ab_apply, broadcastTo_a1_ab_apply]
  show xv (ix2 p d) * Ideal.rsqrt (Ideal.div (shapeCast S1024x1 (multiReduction (F := Ideal) .add [1] S1024 (mulf (F := Ideal) (φ := .f32) xv xv) 0x00000000#32 reduces_S1024x768_S1024 (.inl rfl) rfl) shapeCasts_S1024_S1024x1 (ix2 p (0 : Fin 1))) c768 + eps) * gv (ix2 (0 : Fin 1) d) = _
  rw [shapeCast_a_a1_apply]
  exact congrArg (fun s : EReal => xv (ix2 p d) * Ideal.rsqrt (Ideal.div s c768 + eps) * gv (ix2 (0 : Fin 1) d))
    (laneSum_apply (mulf (F := Ideal) (φ := .f32) xv xv) 0x00000000#32 reduces_S1024x768_S1024 (.inl rfl) rfl p)

/-! ### The matrix product at an index -/

theorem lhs8_0 (i : S1024x512.Idx) (q : dot_S1024x768_S512x768_S1024x512_1_1_0_0_n_n.contr.Idx) :
    (dot_S1024x768_S512x768_S1024x512_1_1_0_0_n_n.lhsIdx i q 0).val = (i 0).val := by
  unfold DotDims.lhsIdx
  rw [dif_neg (show ¬(0 : Fin S1024x768.rank) ∈ dot_S1024x768_S512x768_S1024x512_1_1_0_0_n_n.lhsBatch by decide), dif_pos (show (0 : Fin S1024x768.rank) ∈ dot_S1024x768_S512x768_S1024x512_1_1_0_0_n_n.lhsNonContracting by decide)]
  rfl
theorem lhs8_1 (i : S1024x512.Idx) (q : dot_S1024x768_S512x768_S1024x512_1_1_0_0_n_n.contr.Idx) :
    (dot_S1024x768_S512x768_S1024x512_1_1_0_0_n_n.lhsIdx i q 1).val = (q ⟨0, by decide⟩).val :=
  dot_S1024x768_S512x768_S1024x512_1_1_0_0_n_n.lhsIdx_val_of_single rfl i q
theorem rhs8_0 (i : S1024x512.Idx) (q : dot_S1024x768_S512x768_S1024x512_1_1_0_0_n_n.contr.Idx) :
    (dot_S1024x768_S512x768_S1024x512_1_1_0_0_n_n.rhsIdx i q 0).val = (i 1).val := by
  unfold DotDims.rhsIdx
  rw [dif_neg (show ¬(0 : Fin S512x768.rank) ∈ dot_S1024x768_S512x768_S1024x512_1_1_0_0_n_n.rhsBatch by decide), dif_pos (show (0 : Fin S512x768.rank) ∈ dot_S1024x768_S512x768_S1024x512_1_1_0_0_n_n.rhsNonContracting by decide)]
  rfl
theorem rhs8_1 (i : S1024x512.Idx) (q : dot_S1024x768_S512x768_S1024x512_1_1_0_0_n_n.contr.Idx) :
    (dot_S1024x768_S512x768_S1024x512_1_1_0_0_n_n.rhsIdx i q 1).val = (q ⟨0, by decide⟩).val :=
  dot_S1024x768_S512x768_S1024x512_1_1_0_0_n_n.rhsIdx_val_of_single rfl i q

/-- A tile of logits: entry (p, j) is the inner product of normalised row p with row j of the weight buffer. -/
theorem pay8_apply (xnv : Vec Ideal S1024x768 .bf16) (wv : Vec Ideal S512x768 .f32) (p : Fin 1024) (j : Fin 512) :
    (k0_pay8 (F := Ideal) xnv wv (ix2 p j) : EReal) = ∑ d : Fin 768, (xnv (ix2 p d) : EReal) * (wv (ix2 j d) : EReal) := by
  unfold k0_pay8
  simp only [matmul]
  rw [Ideal.matmul_constant_zero_apply, ← Equiv.sum_comp (contrEquiv1 dot_S1024x768_S512x768_S1024x512_1_1_0_0_n_n 768 rfl rfl).symm]
  refine Finset.sum_congr rfl fun k _ => ?_
  have hk := contrEquiv1_symm_val dot_S1024x768_S512x768_S1024x512_1_1_0_0_n_n 768 rfl rfl k
  have el : dot_S1024x768_S512x768_S1024x512_1_1_0_0_n_n.lhsIdx (ix2 p j) ((contrEquiv1 dot_S1024x768_S512x768_S1024x512_1_1_0_0_n_n 768 rfl rfl).symm k) = ix2 p k := funext fun a => Fin.ext (by
    match a with
    | ⟨0, _⟩ => exact lhs8_0 _ _
    | ⟨1, _⟩ => exact (lhs8_1 _ _).trans hk)
  have er : dot_S1024x768_S512x768_S1024x512_1_1_0_0_n_n.rhsIdx (ix2 p j) ((contrEquiv1 dot_S1024x768_S512x768_S1024x512_1_1_0_0_n_n 768 rfl rfl).symm k) = ix2 j k := funext fun a => Fin.ext (by
    match a with
    | ⟨0, _⟩ => exact rhs8_0 _ _
    | ⟨1, _⟩ => exact (rhs8_1 _ _).trans hk)
  rw [el, er]
  rfl

/-! ### The column word, the two tests on it, and the masked tile -/

/-- A grid point's tile number is below 63. -/
theorem tile_lt (i : grid0.Coords) : (i 1).val < 63 := (i 1).isLt

/-- The column word at (p, j) in tile (i 1) is the word of 512 (i 1) + j. -/
theorem pay9_apply (i : grid0.Coords) (p : Fin 1024) (j : Fin 512) :
    k0_pay9 i (ix2 p j) = BitVec.ofNat 32 (512 * (i 1).val + j.val) := by
  unfold k0_pay9
  show IntOp.addi (IntOp.muli (BitVec.ofNat 32 (i 1).val) 512#32) (iota .tc S1024x512 32 [1] iota_S1024x512_d1_w32 (ix2 p j)) = _
  rw [iota_single_apply]
  show BitVec.ofNat 32 (i 1).val * BitVec.ofNat 32 512 + BitVec.ofNat 32 j.val = _
  apply BitVec.eq_of_toNat_eq
  simp only [BitVec.toNat_add, BitVec.toNat_mul, BitVec.toNat_ofNat]
  have := tile_lt i; have := j.isLt; omega

/-- The test "inside the vocabulary" at (p, j) holds exactly when 512 (i 1) + j is below the vocabulary's size. -/
theorem pay10_one_iff (i : grid0.Coords) (p : Fin 1024) (j : Fin 512) :
    k0_pay10 i (ix2 p j) = 1#1 ↔ 512 * (i 1).val + j.val < NV := by
  unfold k0_pay10
  show IntOp.cmpi .slt (k0_pay9 i (ix2 p j)) (BitVec.ofNat 32 32128) = 1#1 ↔ _
  rw [pay9_apply]
  unfold IntOp.cmpi
  exact StableHlo.Predicate.slt_ofNat_iff _ 32128 (by have := tile_lt i; have := j.isLt; omega) (by norm_num)

/-- A label word equals the word of a natural below 2^32 exactly when its value is that natural. -/
theorem label_eq_iff (lab : BitVec 32) (n : ℕ) (hn : n < 2 ^ 32) : IntOp.cmpi .eq lab (BitVec.ofNat 32 n) = 1#1 ↔ lab.toNat = n := by
  rw [StableHlo.Predicate.cmpi_eq_iff, ← BitVec.toNat_inj, BitVec.toNat_ofNat, Nat.mod_eq_of_lt hn]

theorem andi_zero_right (b : BitVec 1) : IntOp.andi b 0#1 = 0#1 := by unfold IntOp.andi; simp
theorem andi_one_one : IntOp.andi 1#1 1#1 = 1#1 := by decide
theorem andi_zero_one : IntOp.andi 0#1 1#1 = 0#1 := by decide

section Tile

variable (i : grid0.Coords) (xnv : Vec Ideal S1024x768 .bf16) (wv : Vec Ideal S512x768 .f32) (p : Fin 1024) (z : Fin NV → EReal)
  (hz : ∀ (j : Fin 512) (h : 512 * (i 1).val + j.val < NV),
    ∑ d : Fin 768, (xnv (ix2 p d) : EReal) * (wv (ix2 j d) : EReal) = z ⟨512 * (i 1).val + j.val, h⟩)

include hz

/-- The masked tile at (p, j): the logit inside the vocabulary, ⊥ past its end. -/
theorem pay11_apply (j : Fin 512) : (k0_pay11 (F := Ideal) i xnv wv (ix2 p j) : EReal) = zm z (i 1).val j := by
  unfold k0_pay11
  show Scalar.select (k0_pay10 i (ix2 p j)) (k0_pay8 (F := Ideal) xnv wv (ix2 p j)) (Named.named (F := Ideal) κ "neg_big" 0xFF333332#32) = _
  unfold zm
  by_cases h : 512 * (i 1).val + j.val < NV
  · rw [(pay10_one_iff i p j).2 h, select_one, pay8_apply, hz j h, dif_pos h]
  · rw [eq_zero_of_ne_one (mt (pay10_one_iff i p j).1 h), select_zero, dif_neg h]
    exact IdealRules.named_const.ideal_named_scalar _ _ _ _ rfl

/-- The new running maximum of row `p`: the old one against the tile's maximum over its columns inside the vocabulary. -/
theorem pay12_apply (mv : Vec Ideal S1024x1 .f32) :
    (k0_pay12 (F := Ideal) i xnv wv mv (ix2 p (0 : Fin 1)) : EReal)
      = max (mv (ix2 p (0 : Fin 1)) : EReal) (Finset.univ.fold max ⊥ (zm z (i 1).val)) := by
  unfold k0_pay12
  show max (mv (ix2 p (0 : Fin 1))) (shapeCast S1024x1 (multiReduction (F := Ideal) .maximumf [1] S1024 (k0_pay11 (F := Ideal) i xnv wv) 0xFF800000#32 reduces_S1024x512_S1024 (.inl rfl) rfl) shapeCasts_S1024_S1024x1 (ix2 p (0 : Fin 1))) = _
  rw [shapeCast_a_a1_apply]
  refine congrArg (max (mv (ix2 p (0 : Fin 1)))) ?_
  refine (laneMax_apply (k0_pay11 (F := Ideal) i xnv wv) 0xFF800000#32 reduces_S1024x512_S1024 (.inl rfl) rfl p).trans ?_
  rw [ofBits_neg_inf]
  exact congrArg (fun f => Finset.fold max ⊥ f Finset.univ) (funext fun j => pay11_apply i xnv wv p z hz j)

/-- The same through the shape cast the store reads. -/
theorem pay14_apply (mv : Vec Ideal S1024x1 .f32) :
    (k0_pay14 (F := Ideal) i xnv wv mv (ix2 p (0 : Fin 1)) : EReal)
      = max (mv (ix2 p (0 : Fin 1)) : EReal) (Finset.univ.fold max ⊥ (zm z (i 1).val)) := by
  unfold k0_pay14
  simp only [shapeCast_self]
  exact pay12_apply i xnv wv p z hz mv

/-- The new running sum of row `p`: the old one rescaled to the new maximum, plus the tile's exponentials. -/
theorem pay13_apply (mv lv : Vec Ideal S1024x1 .f32) :
    (k0_pay1 (F := Ideal) (k0_pay13 (F := Ideal) i xnv wv mv lv) (ix2 p (0 : Fin 1)) : EReal)
      = Ideal.exp ((mv (ix2 p (0 : Fin 1)) : EReal) - max (mv (ix2 p (0 : Fin 1)) : EReal) (Finset.univ.fold max ⊥ (zm z (i 1).val)))
            * (lv (ix2 p (0 : Fin 1)) : EReal)
          + ∑ j : Fin 512, Ideal.exp (zm z (i 1).val j - max (mv (ix2 p (0 : Fin 1)) : EReal) (Finset.univ.fold max ⊥ (zm z (i 1).val))) := by
  have h12 := pay12_apply i xnv wv p z hz mv
  unfold k0_pay1 k0_pay13
  simp only [shapeCast_self]
  show Ideal.exp (mv (ix2 p (0 : Fin 1)) - k0_pay12 (F := Ideal) i xnv wv mv (ix2 p (0 : Fin 1))) * lv (ix2 p (0 : Fin 1))
      + shapeCast S1024x1 (multiReduction (F := Ideal) .add [1] S1024
          (exp (F := Ideal) (φ := .f32) (subf (F := Ideal) (k0_pay11 (F := Ideal) i xnv wv) (broadcastTo S1024x512 (k0_pay12 (F := Ideal) i xnv wv mv) broadcasts_S1024x1_S1024x512)))
          0x00000000#32 reduces_S1024x512_S1024 (.inl rfl) rfl) shapeCasts_S1024_S1024x1 (ix2 p (0 : Fin 1)) = _
  rw [shapeCast_a_a1_apply, h12]
  congr 1
  refine (laneSum_apply _ 0x00000000#32 reduces_S1024x512_S1024 (.inl rfl) rfl p).trans ?_
  refine Finset.sum_congr rfl fun j _ => ?_
  show Ideal.exp (k0_pay11 (F := Ideal) i xnv wv (ix2 p j) - broadcastTo S1024x512 (k0_pay12 (F := Ideal) i xnv wv mv) broadcasts_S1024x1_S1024x512 (ix2 p j)) = _
  rw [broadcastTo_a1_ab_apply, h12, pay11_apply i xnv wv p z hz j]

/-- The logit found at the label so far: the old value plus this tile's hit, if the label's column lies in it. -/
theorem pay2_apply (labv : Vec Ideal S1024x1 .i32) (tv : Vec Ideal S1024x1 .f32) :
    (k0_pay2 (F := Ideal) (k0_pay8 (F := Ideal) xnv wv) (k0_pay9 i) (k0_pay10 i) labv tv (ix2 p (0 : Fin 1)) : EReal)
      = (tv (ix2 p (0 : Fin 1)) : EReal) + ∑ j : Fin 512, tg z (labv (ix2 p (0 : Fin 1)) : BitVec 32) (i 1).val j := by
  unfold k0_pay2
  simp only [shapeCast_self]
  show tv (ix2 p (0 : Fin 1)) + shapeCast S1024x1 (multiReduction (F := Ideal) .add [1] S1024
      (select (andi (cmpi .eq (broadcastTo S1024x512 labv broadcasts_S1024x1_S1024x512) (k0_pay9 i)) (k0_pay10 i))
        (k0_pay8 (F := Ideal) xnv wv) (broadcast S1024x512 (Scalar.ofBits (F := Ideal) .f32 0x00000000#32)))
      0x00000000#32 reduces_S1024x512_S1024 (.inl rfl) rfl) shapeCasts_S1024_S1024x1 (ix2 p (0 : Fin 1)) = _
  rw [shapeCast_a_a1_apply]
  congr 1
  refine (laneSum_apply _ 0x00000000#32 reduces_S1024x512_S1024 (.inl rfl) rfl p).trans ?_
  refine Finset.sum_congr rfl fun j _ => ?_
  show Scalar.select (IntOp.andi (IntOp.cmpi .eq (broadcastTo S1024x512 labv broadcasts_S1024x1_S1024x512 (ix2 p j)) (k0_pay9 i (ix2 p j))) (k0_pay10 i (ix2 p j)))
      (k0_pay8 (F := Ideal) xnv wv (ix2 p j)) (Ideal.ofBits .f32 0x00000000#32) = _
  have hlt : 512 * (i 1).val + j.val < 2 ^ 32 := by have := tile_lt i; have := j.isLt; omega
  rw [broadcastTo_a1_ab_apply, pay9_apply, Ideal.ofBits_zero_f32]
  unfold tg
  by_cases h : 512 * (i 1).val + j.val < NV
  · rw [(pay10_one_iff i p j).2 h, dif_pos h]
    by_cases he : (labv (ix2 p (0 : Fin 1)) : BitVec 32).toNat = 512 * (i 1).val + j.val
    · rw [(label_eq_iff _ _ hlt).2 he, if_pos he, andi_one_one, select_one, pay8_apply, hz j h]
    · rw [eq_zero_of_ne_one (mt (label_eq_iff _ _ hlt).1 he), if_neg he, andi_zero_one, select_zero]
  · rw [eq_zero_of_ne_one (mt (pay10_one_iff i p j).1 h), dif_neg h, andi_zero_right, select_zero]

end Tile

/-- The row loss written at the last tile. -/
theorem pay3_apply (mv lv tv : Vec Ideal S1024x1 .f32) (y : S1024x1.Idx) :
    (k0_pay3 (F := Ideal) mv lv tv y : EReal) = (mv y : EReal) + Ideal.log (lv y : EReal) - (tv y : EReal) := by
  unfold k0_pay3
  rfl

end Cert.KernelIdeal.Pay

end
-- ==== Proof.IVals.lean ====
/-
  The closed forms of what the region carries from tile to tile and of what it writes, in the specification's words, and the
  value side of one tile: from the closed forms after the tile before (or from the reset values at a row block's first tile),
  the body's arithmetic yields the closed forms after this tile, whatever the weight buffer holds past the table's end.
-/
import proofs.«408325_j68298569941243_3_alg».proof.Proof.IBlocks
import proofs.«408325_j68298569941243_3_alg».proof.Proof.KPay

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The two coordinates of a rank-2 index as plain `Fin`s. -/
def i0 {a b : Nat} (y : (⟨2, ![a, b]⟩ : Shape).Idx) : Fin a := ⟨(y 0).val, idx2_lt0 y⟩
def i1 {a b : Nat} (y : (⟨2, ![a, b]⟩ : Shape).Idx) : Fin b := ⟨(y 1).val, idx2_lt1 y⟩

/-- Row `r`'s logits against the whole vocabulary, and its label. -/
def zrow (c : Dev nD) (r : Fin 2048) : Fin NV → EReal :=
  logit (Xof (m ((c.tc : Thread nD τ).loc main_arg0))) (gof (m ((c.tc : Thread nD τ).loc main_arg2))) (Wof (m ((c.tc : Thread nD τ).loc main_arg3))) r
def lrow (c : Dev nD) (r : Fin 2048) : BitVec 32 := labof (m ((c.tc : Thread nD τ).loc main_arg1)) r

/-- After the body at point `t`: the normalised rows of the point's row block; -/
def xnAt (c : Dev nD) (t : Fin cfg0.N) : Vec Ideal S1024x768 .bf16 :=
  fun y => xn (Xof (m ((c.tc : Thread nD τ).loc main_arg0))) (gof (m ((c.tc : Thread nD τ).loc main_arg2))) (rowAt t (i0 y)) (i1 y)
/-- the running maximum, running sum and logit at the label of each of its rows after tiles `0 … t % 63`; -/
def mAt (c : Dev nD) (t : Fin cfg0.N) : Vec Ideal S1024x1 .f32 :=
  fun y => (st (zrow m c (rowAt t (i0 y))) (lrow m c (rowAt t (i0 y))) (t.val % 63 + 1)).m
def lAt (c : Dev nD) (t : Fin cfg0.N) : Vec Ideal S1024x1 .f32 :=
  fun y => (st (zrow m c (rowAt t (i0 y))) (lrow m c (rowAt t (i0 y))) (t.val % 63 + 1)).l
def tAt (c : Dev nD) (t : Fin cfg0.N) : Vec Ideal S1024x1 .f32 :=
  fun y => (st (zrow m c (rowAt t (i0 y))) (lrow m c (rowAt t (i0 y))) (t.val % 63 + 1)).t
/-- the tile of logits it stores (read only at the columns inside the vocabulary); -/
def logitsAt (c : Dev nD) (t : Fin cfg0.N) : Vec Ideal S1024x512 .f32 :=
  fun y => if h : 512 * (t.val % 63) + (i1 y).val < NV then zrow m c (rowAt t (i0 y)) ⟨512 * (t.val % 63) + (i1 y).val, h⟩ else 0
/-- and the row losses it stores at the last tile. -/
def nllAt (c : Dev nD) (t : Fin cfg0.N) : Vec Ideal S1024x1 .f32 :=
  fun y => nllK (zrow m c (rowAt t (i0 y))) (lrow m c (rowAt t (i0 y)))

/-- What the weight window's buffer holds after the fetch at point `t`, past the table's end `dd`. -/
abbrev wbuf (c : Dev nD) (t : Fin cfg0.N) (dd : S512x768.Idx → EReal) : Vec Ideal S512x768 .f32 :=
  win0_3.fill (grid0.coords t) dd (iblk m c 3 t)

/-- The point before `t` in the same row block. -/
abbrev predPt (t : Fin cfg0.N) : Fin cfg0.N := ⟨t.val - 1, Nat.lt_of_le_of_lt (Nat.sub_le _ _) t.isLt⟩

/-- Off a row block's first tile the point before lies in the same row block, one tile earlier. -/
theorem rowAt_pred (t : Fin cfg0.N) (h0 : ¬t.val % 63 = 0) (p : Fin 1024) : rowAt (predPt t) p = rowAt t p :=
  Fin.ext (by show 1024 * ((t.val - 1) / 63) + p.val = 1024 * (t.val / 63) + p.val; omega)
theorem tile_pred (t : Fin cfg0.N) (h0 : ¬t.val % 63 = 0) : (predPt t).val % 63 + 1 = t.val % 63 := by
  show (t.val - 1) % 63 + 1 = t.val % 63; omega

/-- Off a row block's first tile the carried closed forms are those of the tile before, one tile earlier. -/
theorem xnAt_pred (c : Dev nD) (t : Fin cfg0.N) (h0 : ¬t.val % 63 = 0) : xnAt m c (predPt t) = xnAt m c t := by
  funext y
  show xn _ _ (rowAt (predPt t) (i0 y)) (i1 y) = xn _ _ (rowAt t (i0 y)) (i1 y)
  rw [rowAt_pred t h0]

/-- The reset tile computes the normalised rows. -/
theorem val_xn (c : Dev nD) (t : Fin cfg0.N) : k0_pay4 (F := Ideal) (iblk m c 0 t) (iblk m c 1 t) = xnAt m c t := by
  funext y
  obtain ⟨p, q, rfl⟩ : ∃ (p : Fin 1024) (q : Fin 768), y = ix2 p q := ⟨y 0, y 1, eq_ix2 y⟩
  rw [Pay.pay4_apply]
  simp only [blk0_apply, blk1_apply]
  rfl

section Tile

variable (c : Dev nD) (t : Fin cfg0.N) (dd : S512x768.Idx → EReal) (xnv : Vec Ideal S1024x768 .bf16) (hx : xnv = xnAt m c t)
  (mv lv tv : Vec Ideal S1024x1 .f32)
  (hm : ∀ p : Fin 1024, (mv (ix2 p (0 : Fin 1)) : EReal) = (st (zrow m c (rowAt t p)) (lrow m c (rowAt t p)) (t.val % 63)).m)
  (hl : ∀ p : Fin 1024, (lv (ix2 p (0 : Fin 1)) : EReal) = (st (zrow m c (rowAt t p)) (lrow m c (rowAt t p)) (t.val % 63)).l)
  (ht : ∀ p : Fin 1024, (tv (ix2 p (0 : Fin 1)) : EReal) = (st (zrow m c (rowAt t p)) (lrow m c (rowAt t p)) (t.val % 63)).t)

include hx in
/-- The tile's inner products are the row's logits at the tile's columns inside the vocabulary: the weight buffer holds the
    table's rows there, whatever it holds past the table's end. -/
theorem hz_tile (p : Fin 1024) (j : Fin 512) (h : 512 * ((grid0.coords t) 1).val + j.val < NV) :
    ∑ d : Fin 768, (xnv (ix2 p d) : EReal) * (wbuf m c t dd (ix2 j d) : EReal)
      = zrow m c (rowAt t p) ⟨512 * ((grid0.coords t) 1).val + j.val, h⟩ := by
  have h' : 512 * (t.val % 63) + j.val < NV := by rw [← coords_tile t]; exact h
  have e : (⟨512 * ((grid0.coords t) 1).val + j.val, h⟩ : Fin NV) = ⟨512 * (t.val % 63) + j.val, h'⟩ :=
    Fin.ext (by show 512 * ((grid0.coords t) 1).val + j.val = 512 * (t.val % 63) + j.val; rw [coords_tile t])
  rw [e, hx]
  unfold zrow logit
  refine Finset.sum_congr rfl fun d _ => ?_
  show xnAt m c t (ix2 p d) * win0_3.fill (grid0.coords t) dd (iblk m c 3 t) (ix2 j d) = _
  rw [blk3_apply m c t dd j h' d]
  rfl

include hx hm in
/-- The running maximum after this tile. -/
theorem val_m : k0_pay14 (F := Ideal) (grid0.coords t) xnv (wbuf m c t dd) mv = mAt m c t := by
  funext y
  obtain ⟨p, q, rfl⟩ : ∃ (p : Fin 1024) (q : Fin 1), y = ix2 p q := ⟨y 0, y 1, eq_ix2 y⟩
  obtain rfl : q = 0 := Subsingleton.elim _ _
  rw [Pay.pay14_apply (grid0.coords t) xnv (wbuf m c t dd) p (zrow m c (rowAt t p)) (hz_tile m c t dd xnv hx p) mv, hm p, coords_tile t]
  rfl

include hx hm hl in
/-- The running sum after this tile. -/
theorem val_l : k0_pay1 (F := Ideal) (k0_pay13 (F := Ideal) (grid0.coords t) xnv (wbuf m c t dd) mv lv) = lAt m c t := by
  funext y
  obtain ⟨p, q, rfl⟩ : ∃ (p : Fin 1024) (q : Fin 1), y = ix2 p q := ⟨y 0, y 1, eq_ix2 y⟩
  obtain rfl : q = 0 := Subsingleton.elim _ _
  rw [Pay.pay13_apply (grid0.coords t) xnv (wbuf m c t dd) p (zrow m c (rowAt t p)) (hz_tile m c t dd xnv hx p) mv lv, hm p, hl p,
    coords_tile t]
  rfl

include hx ht in
/-- The logit at the label after this tile. -/
theorem val_t : k0_pay2 (F := Ideal) (k0_pay8 (F := Ideal) xnv (wbuf m c t dd)) (k0_pay9 (grid0.coords t)) (k0_pay10 (grid0.coords t)) (iblk m c 2 t) tv
    = tAt m c t := by
  funext y
  obtain ⟨p, q, rfl⟩ : ∃ (p : Fin 1024) (q : Fin 1), y = ix2 p q := ⟨y 0, y 1, eq_ix2 y⟩
  obtain rfl : q = 0 := Subsingleton.elim _ _
  rw [Pay.pay2_apply (grid0.coords t) xnv (wbuf m c t dd) p (zrow m c (rowAt t p)) (hz_tile m c t dd xnv hx p) (iblk m c 2 t) tv, ht p,
    blk2_apply, coords_tile t]
  rfl

include hx in
/-- The tile of logits, on the part the write-back moves. -/
theorem val_logits : win0_4.cut (grid0.coords t) (k0_pay8 (F := Ideal) xnv (wbuf m c t dd)) = win0_4.cut (grid0.coords t) (logitsAt m c t) := by
  funext j
  have hx1 : win0_4.xsize (grid0.coords t) (1 : Fin 2) = min 512 (32128 - 512 * (t.val % 63)) :=
    (by decide +kernel : ∀ t : Fin grid0.N, win0_4.xsize (grid0.coords t) (1 : Fin 2) = min 512 (32128 - 512 * (t.val % 63))) t
  have hj1 : (j 1).val < win0_4.xsize (grid0.coords t) (1 : Fin 2) := (j 1).isLt
  have hq : (j 1).val < 512 := by rw [hx1] at hj1; omega
  have hp : (j 0).val < 1024 := Nat.lt_of_lt_of_le (j 0).isLt (win0_4.xsize_le (grid0.coords t) (0 : Fin 2))
  have h' : 512 * (t.val % 63) + (j 1).val < NV := by rw [hx1] at hj1; show _ < 32128; omega
  have h : 512 * ((grid0.coords t) 1).val + (j 1).val < NV := by rw [coords_tile t]; exact h'
  have ej : win0_4.xinj (grid0.coords t) j = ix2 (⟨(j 0).val, hp⟩ : Fin 1024) (⟨(j 1).val, hq⟩ : Fin 512) := by
    funext a; refine Fin.ext ?_
    match a with
    | ⟨0, _⟩ => rfl
    | ⟨1, _⟩ => rfl
  show k0_pay8 (F := Ideal) xnv (wbuf m c t dd) (win0_4.xinj (grid0.coords t) j) = logitsAt m c t (win0_4.xinj (grid0.coords t) j)
  rw [ej, Pay.pay8_apply, hz_tile m c t dd xnv hx ⟨(j 0).val, hp⟩ ⟨(j 1).val, hq⟩ h]
  unfold logitsAt
  rw [dif_pos (show 512 * (t.val % 63) + (i1 (ix2 (⟨(j 0).val, hp⟩ : Fin 1024) (⟨(j 1).val, hq⟩ : Fin 512))).val < NV from h')]
  exact congrArg (zrow m c (rowAt t ⟨(j 0).val, hp⟩)) (Fin.ext (by show 512 * ((grid0.coords t) 1).val + (j 1).val = 512 * (t.val % 63) + (j 1).val; rw [coords_tile t]))

end Tile

/-- The carried closed forms after the tile before are the state this tile starts from. -/
theorem mAt_pred (c : Dev nD) (t : Fin cfg0.N) (h0 : ¬t.val % 63 = 0) (p : Fin 1024) :
    (mAt m c (predPt t) (ix2 p (0 : Fin 1)) : EReal) = (st (zrow m c (rowAt t p)) (lrow m c (rowAt t p)) (t.val % 63)).m := by
  show (st (zrow m c (rowAt (predPt t) p)) (lrow m c (rowAt (predPt t) p)) ((predPt t).val % 63 + 1)).m = _
  rw [rowAt_pred t h0 p, tile_pred t h0]
theorem lAt_pred (c : Dev nD) (t : Fin cfg0.N) (h0 : ¬t.val % 63 = 0) (p : Fin 1024) :
    (lAt m c (predPt t) (ix2 p (0 : Fin 1)) : EReal) = (st (zrow m c (rowAt t p)) (lrow m c (rowAt t p)) (t.val % 63)).l := by
  show (st (zrow m c (rowAt (predPt t) p)) (lrow m c (rowAt (predPt t) p)) ((predPt t).val % 63 + 1)).l = _
  rw [rowAt_pred t h0 p, tile_pred t h0]
theorem tAt_pred (c : Dev nD) (t : Fin cfg0.N) (h0 : ¬t.val % 63 = 0) (p : Fin 1024) :
    (tAt m c (predPt t) (ix2 p (0 : Fin 1)) : EReal) = (st (zrow m c (rowAt t p)) (lrow m c (rowAt t p)) (t.val % 63)).t := by
  show (st (zrow m c (rowAt (predPt t) p)) (lrow m c (rowAt (predPt t) p)) ((predPt t).val % 63 + 1)).t = _
  rw [rowAt_pred t h0 p, tile_pred t h0]

/-- The reset values are the state a row block's first tile starts from. -/
theorem reset_m (c : Dev nD) (t : Fin cfg0.N) (h0 : t.val % 63 = 0) (p : Fin 1024) :
    (k0_pay5 (F := Ideal) (ix2 p (0 : Fin 1)) : EReal) = (st (zrow m c (rowAt t p)) (lrow m c (rowAt t p)) (t.val % 63)).m := by
  rw [Pay.pay5_apply, h0]; rfl
theorem reset_l (c : Dev nD) (t : Fin cfg0.N) (h0 : t.val % 63 = 0) (p : Fin 1024) :
    (k0_pay6 (F := Ideal) (ix2 p (0 : Fin 1)) : EReal) = (st (zrow m c (rowAt t p)) (lrow m c (rowAt t p)) (t.val % 63)).l := by
  rw [Pay.pay6_apply, h0]; rfl
theorem reset_t (c : Dev nD) (t : Fin cfg0.N) (h0 : t.val % 63 = 0) (p : Fin 1024) :
    (k0_pay7 (F := Ideal) (ix2 p (0 : Fin 1)) : EReal) = (st (zrow m c (rowAt t p)) (lrow m c (rowAt t p)) (t.val % 63)).t := by
  rw [Pay.pay7_apply, h0]; rfl

/-- At the last tile the stored row loss is the running form of the loss. -/
theorem val_nll (c : Dev nD) (t : Fin cfg0.N) (h1 : t.val % 63 = 62) :
    k0_pay3 (F := Ideal) (mAt m c t) (lAt m c t) (tAt m c t) = nllAt m c t := by
  funext y
  rw [Pay.pay3_apply]
  unfold mAt lAt tAt nllAt nllK
  rw [h1]

end Cert.KernelIdeal.Hand

end
-- ==== Proof.IDat.lean ====
/-
  The proof data of the region at the extended reals, in closed form: the arrays as the region finds them; after the body at a
  point the input windows' buffers at their blocks (the weight tile filled out past the table's end by zeros, which nothing
  reads), the logits window's at the tile of logits, the row-loss window's at the running form of the loss; and the region
  invariant: before the first point the class's, afterwards the four scratch buffers at the closed forms the point before left.
-/
import proofs.«408325_j68298569941243_3_alg».proof.Proof.IVals

set_option maxRecDepth 16384

noncomputable section

namespace Cert.KernelIdeal.Hand

open Cert.KernelIdeal Cert.KernelIdeal.Gen Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The region invariant before position `n`. -/
def PhiS (c : Dev nD) : (n : ℕ) → n ≤ cfg0.N → sProp 𝕄
  | 0, _ => Pipeline.ΦA spec0 c
  | n + 1, hn => iprop(iprop(owns (c : Thread nD τ) scM0_0 fullShare (xnAt m c ⟨n, hn⟩) ∗ owns (c : Thread nD τ) scM0_1 fullShare (mAt m c ⟨n, hn⟩)
      ∗ owns (c : Thread nD τ) scM0_2 fullShare (lAt m c ⟨n, hn⟩) ∗ owns (c : Thread nD τ) scM0_3 fullShare (tAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xnAt m c ⟨n, hn⟩) ∗ owns (c : Thread nD τ) scM0_1 fullShare (mAt m c ⟨n, hn⟩)
      ∗ owns (c : Thread nD τ) scM0_2 fullShare (lAt m c ⟨n, hn⟩) ∗ owns (c : Thread nD τ) scM0_3 fullShare (tAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (xnAt m c ⟨n - 1, by omega⟩) ∗ owns (c : Thread nD τ) scM0_1 fullShare (mAt m c ⟨n - 1, by omega⟩)
      ∗ owns (c : Thread nD τ) scM0_2 fullShare (lAt m c ⟨n - 1, by omega⟩) ∗ owns (c : Thread nD τ) scM0_3 fullShare (tAt m c ⟨n - 1, by omega⟩)) ∗ (∃ r, prngReg c r)) := by
  cases n with
  | zero => exact absurd rfl hz
  | succ n => rfl

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wbuf m c t (fun _ => (0 : EReal))
    | ⟨4, _⟩ => logitsAt m c t
    | ⟨5, _⟩ => nllAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = wbuf m c t (fun _ => (0 : EReal)) := by dsimp only [dats]
theorem after0_4 (c : Dev nD) (t : Fin cfg0.N) : (dats m 0 c).after 4 t = logitsAt m c t := by dsimp only [dats]
theorem after0_5 (c : Dev nD) (t : Fin cfg0.N) : (dats m 0 c).after 5 t = nllAt m c t := by dsimp only [dats]

/-- Each input's current staging buffer holds its block at every point; the weight window's, just fetched, its tile inside the
    table and anything past the table's end. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = wbuf m c t d := by
  unfold Dat.before; rw [if_pos (fetch0_3 t)]; unfold Dat.fetched Dat.blockOf; rw [A_eq]; rfl

end Cert.KernelIdeal.Hand

end
-- ==== Proof.IRunA.lean ====
/-
  The kernel body run whole at the first vocabulary tile of a row block, not the last: on whole staging memrefs and the four scratch memrefs, the inputs at their contents,
  the scratch at anything (this tile resets it), the body runs to a state holding the inputs as they were and every buffer it
  stored into with its stores written over what was there; the stores, as pieces, are the witness the symbolic run finds.
-/
import proofs.«408325_j68298569941243_3_alg».proof.Proof.IBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The run at the first vocabulary tile of a row block, not the last. -/
noncomputable def kernelRun0_A (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x768 .f32) (x1 : Vec F S1x768 .f32) (x2 : Vec F S1024x1 .i32) (x3 : Vec F S512x768 .f32) :
    Σ' (L4 : List (View.Piece (Elt F) S1024x512 .f32)) (LS0 : List (View.Piece (Elt F) S1024x768 .bf16)) (LS1 : List (View.Piece (Elt F) S1024x1 .f32)) (LS2 : List (View.Piece (Elt F) S1024x1 .f32)), { LS3 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun xi5 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.IRunB.lean ====
/-
  The kernel body run whole at a middle vocabulary tile: on whole staging memrefs and the four scratch memrefs, the inputs at their contents,
  the scratch at what the tile before left, the body runs to a state holding the inputs as they were and every buffer it
  stored into with its stores written over what was there; the stores, as pieces, are the witness the symbolic run finds.
-/
import proofs.«408325_j68298569941243_3_alg».proof.Proof.IRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The run at a middle vocabulary tile. -/
noncomputable def kernelRun0_B (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) :
    Σ' (L4 : List (View.Piece (Elt F) S1024x512 .f32)) (LS1 : List (View.Piece (Elt F) S1024x1 .f32)) (LS2 : List (View.Piece (Elt F) S1024x1 .f32)), { LS3 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun xi5 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Hand

end
-- ==== Proof.IRunC.lean ====
/-
  The kernel body run whole at the last vocabulary tile, not the first: on whole staging memrefs and the four scratch memrefs, the inputs at their contents,
  the scratch at what the tile before left, the body runs to a state holding the inputs as they were and every buffer it
  stored into with its stores written over what was there; the stores, as pieces, are the witness the symbolic run finds.
-/
import proofs.«408325_j68298569941243_3_alg».proof.Proof.IRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The run at the last vocabulary tile, not the first. -/
noncomputable def kernelRun0_C (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) :
    Σ' (L4 : List (View.Piece (Elt F) S1024x512 .f32)) (L5 : List (View.Piece (Elt F) S1024x1 .f32)) (LS1 : List (View.Piece (Elt F) S1024x1 .f32)) (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Hand

end
-- ==== Proof.IPieces.lean ====
/-
  What each buffer reads after the body's run, in each of the three cases: every store of the body covers its buffer whole, so a
  buffer reads the value last stored into it, and a load that follows a store reads the value stored. The values are the body's
  named pure terms: the normalised rows, a tile of logits, one tile's update of the running maximum, the running sum and the logit
  at the label, and the row loss.
-/
import proofs.«408325_j68298569941243_3_alg».proof.Proof.IRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem hz2 : (![0, 0] : Fin 2 → Nat) = fun _ => 0 := by funext a; match a with | ⟨0, _⟩ => rfl | ⟨1, _⟩ => rfl

/-- A buffer whose last store was a whole-shape store reads that store's value, whatever it held and whatever was stored before. -/
theorem read_writes_whole {sig' : RefSig} {κ' : Kind} {sp' : Space} {S : Shape} {e : EltTy} {Val : EltTy → Type} [∀ e, Nonempty (Val e)]
    (v : View sig' κ' sp' S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

theorem pA_4 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x768 .f32) (x1 : Vec F S1x768 .f32) (x2 : Vec F S1024x1 .i32) (x3 : Vec F S512x768 .f32) (f : arg6.view.ty.Contents (Elt F)) :
    arg6.view.read (Elt F) (arg6.view.writes (Elt F) f (kernelRun0_A c i arg2 harg2 arg3 harg3 arg4 harg4 arg5 harg5 arg6 harg6 arg7 harg7 arg8 harg8 arg9 harg9 arg10 harg10 arg11 harg11 hc0 hc1 x0 x1 x2 x3).1) = k0_pay8 (k0_pay4 x0 x1) x3 := by
  unfold kernelRun0_A; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pA_S0 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x768 .f32) (x1 : Vec F S1x768 .f32) (x2 : Vec F S1024x1 .i32) (x3 : Vec F S512x768 .f32) (f : arg8.view.ty.Contents (Elt F)) :
    arg8.view.read (Elt F) (arg8.view.writes (Elt F) f (kernelRun0_A c i arg2 harg2 arg3 harg3 arg4 harg4 arg5 harg5 arg6 harg6 arg7 harg7 arg8 harg8 arg9 harg9 arg10 harg10 arg11 harg11 hc0 hc1 x0 x1 x2 x3).2.1) = k0_pay4 x0 x1 := by
  unfold kernelRun0_A; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pA_S1 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x768 .f32) (x1 : Vec F S1x768 .f32) (x2 : Vec F S1024x1 .i32) (x3 : Vec F S512x768 .f32) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 arg10 harg10 arg11 harg11 hc0 hc1 x0 x1 x2 x3).2.2.1) = k0_pay14 i (k0_pay4 x0 x1) x3 k0_pay5 := by
  unfold kernelRun0_A; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pA_S2 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x768 .f32) (x1 : Vec F S1x768 .f32) (x2 : Vec F S1024x1 .i32) (x3 : Vec F S512x768 .f32) (f : arg10.view.ty.Contents (Elt F)) :
    arg10.view.read (Elt F) (arg10.view.writes (Elt F) f (kernelRun0_A c i arg2 harg2 arg3 harg3 arg4 harg4 arg5 harg5 arg6 harg6 arg7 harg7 arg8 harg8 arg9 harg9 arg10 harg10 arg11 harg11 hc0 hc1 x0 x1 x2 x3).2.2.2.1) = k0_pay1 (k0_pay13 i (k0_pay4 x0 x1) x3 k0_pay5 k0_pay6) := by
  unfold kernelRun0_A; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pA_S3 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x768 .f32) (x1 : Vec F S1x768 .f32) (x2 : Vec F S1024x1 .i32) (x3 : Vec F S512x768 .f32) (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 hc0 hc1 x0 x1 x2 x3).2.2.2.2.1) = k0_pay2 (k0_pay8 (k0_pay4 x0 x1) x3) (k0_pay9 i) (k0_pay10 i) x2 k0_pay7 := by
  unfold kernelRun0_A; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pB_4 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg6.view.ty.Contents (Elt F)) :
    arg6.view.read (Elt F) (arg6.view.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1) = k0_pay8 xs0 x3 := by
  unfold kernelRun0_B; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pB_S1 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg9.view.ty.Contents (Elt F)) :
    arg9.view.read (Elt F) (arg9.view.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1) = k0_pay14 i xs0 x3 xs1 := by
  unfold kernelRun0_B; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pB_S2 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg10.view.ty.Contents (Elt F)) :
    arg10.view.read (Elt F) (arg10.view.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1) = k0_pay1 (k0_pay13 i xs0 x3 xs1 xs2) := by
  unfold kernelRun0_B; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pB_S3 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1) = k0_pay2 (k0_pay8 xs0 x3) (k0_pay9 i) (k0_pay10 i) x2 xs3 := by
  unfold kernelRun0_B; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pC_4 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg6.view.ty.Contents (Elt F)) :
    arg6.view.read (Elt F) (arg6.view.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1) = k0_pay8 xs0 x3 := by
  unfold kernelRun0_C; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pC_5 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1) = k0_pay3 (k0_pay14 i xs0 x3 xs1) (k0_pay1 (k0_pay13 i xs0 x3 xs1 xs2)) (k0_pay2 (k0_pay8 xs0 x3) (k0_pay9 i) (k0_pay10 i) x2 xs3) := by
  unfold kernelRun0_C; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pC_S1 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1) = k0_pay14 i xs0 x3 xs1 := by
  unfold kernelRun0_C; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pC_S2 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg10.view.ty.Contents (Elt F)) :
    arg10.view.read (Elt F) (arg10.view.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1) = k0_pay1 (k0_pay13 i xs0 x3 xs1 xs2) := by
  unfold kernelRun0_C; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

theorem pC_S3 (c : Dev nD) (i : grid0.Coords) (arg2 : Memref sig .tc .vmem S1024x768 .f32) (harg2 : arg2.IsWhole) (arg3 : Memref sig .tc .vmem S1x768 .f32) (harg3 : arg3.IsWhole) (arg4 : Memref sig .tc .vmem S1024x1 .i32) (harg4 : arg4.IsWhole) (arg5 : Memref sig .tc .vmem S512x768 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x768 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x768 .f32) (x1 : Vec F S1x768 .f32) (x2 : Vec F S1024x1 .i32) (x3 : Vec F S512x768 .f32) (xs0 : Vec F S1024x768 .bf16) (xs1 : Vec F S1024x1 .f32) (xs2 : Vec F S1024x1 .f32) (xs3 : Vec F S1024x1 .f32) (f : arg11.view.ty.Contents (Elt F)) :
    arg11.view.read (Elt F) (arg11.view.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1) = k0_pay2 (k0_pay8 xs0 x3) (k0_pay9 i) (k0_pay10 i) x2 xs3 := by
  unfold kernelRun0_C; dsimp only; sl_unfold_words
  rw [read_writes_whole _ _ hz2]
  simp only [View.readAt_eq_ld, harg2.read_unread, harg3.read_unread, harg4.read_unread, harg5.read_unread, harg8.read_unread, harg9.read_unread, harg10.read_unread, harg11.read_unread,
    View.ld_unit_zero (S := S1024x768) hz2, View.ld_unit_zero (S := S1x768) hz2, View.ld_unit_zero (S := S1024x1) hz2, View.ld_unit_zero (S := S512x768) hz2, View.ld_unit_zero (S := S1024x512) hz2,
    View.readCov_unit_zero (S := S1024x1) _ hz2, View.readCov_unit_zero (S := S1024x768) _ hz2]

end Cert.KernelIdeal.Hand

end
-- ==== Proof.IData.lean ====
/-
  The body obligation of the region at the extended reals against the closed-form proof data, and the run of @main to the
  frame post over that data: at every grid point the body, handed the inputs' buffers at their blocks and the scratch at the
  closed forms the point before left, leaves the scratch, the tile of logits and (at the last tile) the row losses at this
  point's closed forms.
-/
import proofs.«408325_j68298569941243_3_alg».proof.Proof.IDat
import proofs.«408325_j68298569941243_3_alg».proof.Proof.IPieces

set_option maxRecDepth 16384

noncomputable section

namespace Cert.KernelIdeal.Hand

open Cert.KernelIdeal Cert.KernelIdeal.Gen Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The invariant at the region's ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch buffers' closed forms are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 126 := N_0; omega)

/-- Before any point the invariant gives the class's: at the first it is the class's. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
    try exact Idealize.SL.BI.Entails.refl _
  · exact Phi_out m c t ht

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t)

/-- The first three inputs are never idle and their blocks tile their arrays: each buffer is left at its block. -/
theorem leaves0_0 (c : Dev nD) (t : Fin cfg0.N) :
    (dats m 0 c).leaves 0 t = owns (c : Thread nD τ) (ms0_0 t) fullShare (iblk m c 0 t) := by
  unfold Dat.leaves; rw [liveAt0_0 t, after0_0]
theorem leaves0_1 (c : Dev nD) (t : Fin cfg0.N) :
    (dats m 0 c).leaves 1 t = owns (c : Thread nD τ) (ms0_1 t) fullShare (iblk m c 1 t) := by
  unfold Dat.leaves; rw [liveAt0_1 t, after0_1]
theorem leaves0_2 (c : Dev nD) (t : Fin cfg0.N) :
    (dats m 0 c).leaves 2 t = owns (c : Thread nD τ) (ms0_2 t) fullShare (iblk m c 2 t) := by
  unfold Dat.leaves; rw [liveAt0_2 t, after0_2]
/-- The weight tile's buffer is left at its tile where a fetch fills it, at anything past the table's end. -/
theorem leaves0_3 (c : Dev nD) (t : Fin cfg0.N) :
    (dats m 0 c).leaves 3 t = iprop(∃ d, owns (c : Thread nD τ) (ms0_3 t) fullShare (wbuf m c t d)) := by
  unfold Dat.leaves; rw [liveAt0_3 t, after0_3, Window.cut_fill]; rfl
/-- The logits' buffer is left at the tile of logits on the part a write-back moves, at anything elsewhere. -/
theorem leaves0_4 (c : Dev nD) (t : Fin cfg0.N) :
    (dats m 0 c).leaves 4 t
      = iprop(∃ d, owns (c : Thread nD τ) (ms0_4 t) fullShare (win0_4.fill (grid0.coords t) d (win0_4.cut (grid0.coords t) (logitsAt m c t)))) := by
  unfold Dat.leaves; rw [liveAt0_4 t, after0_4]; rfl
/-- At the last tile the row losses' buffer is left at the row losses. -/
theorem leaves0_5 (c : Dev nD) (t : Fin cfg0.N) (hc1 : cond0_1 (grid0.coords t)) :
    (dats m 0 c).leaves 5 t = owns (c : Thread nD τ) (ms0_5 t) fullShare (nllAt m c t) := by
  unfold Dat.leaves; rw [liveAt0_5 t hc1, after0_5]

set_option maxHeartbeats 4000000 in
/-- The body at the first tile of a row block: whatever the scratch holds, the body resets it; what it leaves there and in
    the logits' buffer reads as the closed forms of this point, from the reset values. The row losses' buffer is idle. -/
theorem sound_body_A (c : Dev nD) (t : Fin cfg0.N) (h0 : t.val % 63 = 0) :
    bodyPre m c t ⊢ wp frame (wpE (defs₀ (F := Ideal)) Variants.none c none) Set.univ (bodyAt0 t) (fun _ => bodyPost m c t) := by
  have hN : t.val < 126 := lt_of_lt_of_eq t.isLt (show cfg0.N = 126 from N_0)
  have h1 : ¬t.val % 63 = 62 := by omega
  have hc1 : ¬cond0_1 (grid0.coords t) := fun h => h1 ((hcond0_1 t).mp h)
  have hx := val_xn m c t
  unfold bodyPre bodyPost bodyAt0
  simp only [before0_0, before0_1, before0_2, before0_3]
  rw [leaves0_0, leaves0_1, leaves0_2, leaves0_3, leaves0_4, Dat.leaves_idle (dats m 0 c) 5 t (idleAt0_5 t hc1) (noFlush0_5 t hc1)]
  rw [show (dats m 0 c).owesAt () t.succ = (dats m 0 c).owesAt () t.castSucc from rfl,
    show (dats m 0 c).Φ t.succ = PhiS m c (t.val + 1) t.isLt from rfl, PhiS_succ]
  refine BIClass.entails_trans (BIClass.sep_mono (Phi_any m c t.castSucc) (BIClass.entails_refl _)) ?_
  rw [PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ ((hcond0_0 t).mpr h0) hc1
    (iblk m c 0 t) (iblk m c 1 t) (iblk m c 2 t) (wbuf m c t d3)).2.2.2.2.2 ((dats m 0 c).before 5 t d5) Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  isplitl [HS2]; · iexact HS2
  isplitl [HS3]; · iexact HS3
  iintro ⟨H0, H1, H2, H3, ⟨%f4, H4⟩, H5, ⟨%fs0, HS0⟩, ⟨%fs1, HS1⟩, ⟨%fs2, HS2⟩, ⟨%fs3, HS3⟩⟩
  isplitl [HS0 HS1 HS2 HS3 Hg]
  · isplitr [Hg]
    · isplitl [HS0]
      · unfold owns; iexists _; isplitr
        swap; · iexact HS0
        ipureintro; exact (pA_S0 ..).trans hx
      isplitl [HS1]
      · unfold owns; iexists _; isplitr
        swap; · iexact HS1
        ipureintro; exact (pA_S1 ..).trans (val_m m c t d3 _ hx _ (reset_m m c t h0))
      isplitl [HS2]
      · unfold owns; iexists _; isplitr
        swap; · iexact HS2
        ipureintro; exact (pA_S2 ..).trans (val_l m c t d3 _ hx _ _ (reset_m m c t h0) (reset_l m c t h0))
      · unfold owns; iexists _; isplitr
        swap; · iexact HS3
        ipureintro; exact (pA_S3 ..).trans (val_t m c t d3 _ hx _ (reset_t m c t h0))
    · iexact Hg
  isplitl [Ho]; · iexact Ho
  isplitl [H0]; · iexact H0
  isplitl [H1]; · iexact H1
  isplitl [H2]; · iexact H2
  isplitl [H3]; · iexists _; iexact H3
  isplitl [H4]
  · iexists (k0_pay8 (F := Ideal) (k0_pay4 (F := Ideal) (iblk m c 0 t) (iblk m c 1 t)) (wbuf m c t d3))
    rw [win0_4.fill_congr_cut (grid0.coords t) (val_logits m c t d3 _ hx)]
    unfold owns; iexists _; isplitr
    swap; · iexact H4
    ipureintro; exact pA_4 ..
  iexists _; iexact H5

set_option maxHeartbeats 4000000 in
/-- The body at a tile that is neither the first nor the last of its row block: handed the scratch at the closed forms the
    tile before left, it leaves the normalised rows as they were and the running statistics and the logits' buffer at what
    reads as this tile's closed forms. The row losses' buffer is idle. -/
theorem sound_body_B (c : Dev nD) (t : Fin cfg0.N) (h0 : ¬t.val % 63 = 0) (h1 : ¬t.val % 63 = 62) :
    bodyPre m c t ⊢ wp frame (wpE (defs₀ (F := Ideal)) Variants.none c none) Set.univ (bodyAt0 t) (fun _ => bodyPost m c t) := by
  have hz : t.val ≠ 0 := fun h => h0 (by rw [h])
  have hc1 : ¬cond0_1 (grid0.coords t) := fun h => h1 ((hcond0_1 t).mp h)
  unfold bodyPre bodyPost bodyAt0
  simp only [before0_0, before0_1, before0_2, before0_3]
  rw [leaves0_0, leaves0_1, leaves0_2, leaves0_3, leaves0_4, Dat.leaves_idle (dats m 0 c) 5 t (idleAt0_5 t hc1) (noFlush0_5 t hc1)]
  rw [show (dats m 0 c).owesAt () t.succ = (dats m 0 c).owesAt () t.castSucc from rfl,
    show (dats m 0 c).Φ t.succ = PhiS m c (t.val + 1) t.isLt from rfl, PhiS_succ]
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ _ _ _ _ _ _ (fun h => h0 ((hcond0_0 t).mp h)) hc1
    (iblk m c 0 t) (iblk m c 1 t) (iblk m c 2 t) (wbuf m c t d3) (xnAt m c t) (mAt m c (predPt t)) (lAt m c (predPt t)) (tAt m c (predPt t))).2.2.2.2
    ((dats m 0 c).before 5 t d5) Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · rw [← xnAt_pred m c t h0]; iexact HS0
  isplitl [HS1]; · iexact HS1
  isplitl [HS2]; · iexact HS2
  isplitl [HS3]; · iexact HS3
  iintro ⟨H0, H1, H2, H3, ⟨%f4, H4⟩, H5, HS0, ⟨%fs1, HS1⟩, ⟨%fs2, HS2⟩, ⟨%fs3, HS3⟩⟩
  isplitl [HS0 HS1 HS2 HS3 Hg]
  · isplitr [Hg]
    · isplitl [HS0]; · iexact HS0
      isplitl [HS1]
      · unfold owns; iexists _; isplitr
        swap; · iexact HS1
        ipureintro; exact (pB_S1 ..).trans (val_m m c t d3 _ rfl _ (mAt_pred m c t h0))
      isplitl [HS2]
      · unfold owns; iexists _; isplitr
        swap; · iexact HS2
        ipureintro; exact (pB_S2 ..).trans (val_l m c t d3 _ rfl _ _ (mAt_pred m c t h0) (lAt_pred m c t h0))
      · unfold owns; iexists _; isplitr
        swap; · iexact HS3
        ipureintro; exact (pB_S3 ..).trans (val_t m c t d3 _ rfl _ (tAt_pred m c t h0))
    · iexact Hg
  isplitl [Ho]; · iexact Ho
  isplitl [H0]; · iexact H0
  isplitl [H1]; · iexact H1
  isplitl [H2]; · iexact H2
  isplitl [H3]; · iexists _; iexact H3
  isplitl [H4]
  · iexists (k0_pay8 (F := Ideal) (xnAt m c t) (wbuf m c t d3))
    rw [win0_4.fill_congr_cut (grid0.coords t) (val_logits m c t d3 _ rfl)]
    unfold owns; iexists _; isplitr
    swap; · iexact H4
    ipureintro; exact pB_4 ..
  iexists _; iexact H5

set_option maxHeartbeats 4000000 in
/-- The body at the last tile of a row block: as at a middle tile, and the row losses' buffer is left at what reads as the
    running form of the loss over this tile's closed forms. -/
theorem sound_body_C (c : Dev nD) (t : Fin cfg0.N) (h0 : ¬t.val % 63 = 0) (h1 : t.val % 63 = 62) :
    bodyPre m c t ⊢ wp frame (wpE (defs₀ (F := Ideal)) Variants.none c none) Set.univ (bodyAt0 t) (fun _ => bodyPost m c t) := by
  have hz : t.val ≠ 0 := fun h => h0 (by rw [h])
  have hc1 : cond0_1 (grid0.coords t) := (hcond0_1 t).mpr h1
  unfold bodyPre bodyPost bodyAt0
  simp only [before0_0, before0_1, before0_2, before0_3]
  rw [leaves0_0, leaves0_1, leaves0_2, leaves0_3, leaves0_4, leaves0_5 m c t hc1]
  rw [show (dats m 0 c).owesAt () t.succ = (dats m 0 c).owesAt () t.castSucc from rfl,
    show (dats m 0 c).Φ t.succ = PhiS m c (t.val + 1) t.isLt from rfl, PhiS_succ]
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ _ _ _ _ (fun h => h0 ((hcond0_0 t).mp h)) hc1
    (iblk m c 0 t) (iblk m c 1 t) (iblk m c 2 t) (wbuf m c t d3) (xnAt m c t) (mAt m c (predPt t)) (lAt m c (predPt t)) (tAt m c (predPt t))).2.2.2.2.2
    Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · rw [← xnAt_pred m c t h0]; iexact HS0
  isplitl [HS1]; · iexact HS1
  isplitl [HS2]; · iexact HS2
  isplitl [HS3]; · iexact HS3
  iintro ⟨H0, H1, H2, H3, ⟨%f4, H4⟩, ⟨%f5, H5⟩, HS0, ⟨%fs1, HS1⟩, ⟨%fs2, HS2⟩, ⟨%fs3, HS3⟩⟩
  isplitl [HS0 HS1 HS2 HS3 Hg]
  · isplitr [Hg]
    · isplitl [HS0]; · iexact HS0
      isplitl [HS1]
      · unfold owns; iexists _; isplitr
        swap; · iexact HS1
        ipureintro; exact (pC_S1 ..).trans (val_m m c t d3 _ rfl _ (mAt_pred m c t h0))
      isplitl [HS2]
      · unfold owns; iexists _; isplitr
        swap; · iexact HS2
        ipureintro; exact (pC_S2 ..).trans (val_l m c t d3 _ rfl _ _ (mAt_pred m c t h0) (lAt_pred m c t h0))
      · unfold owns; iexists _; isplitr
        swap; · iexact HS3
        ipureintro; exact (pC_S3 ..).trans (val_t m c t d3 _ rfl _ (tAt_pred m c t h0))
    · iexact Hg
  isplitl [Ho]; · iexact Ho
  isplitl [H0]; · iexact H0
  isplitl [H1]; · iexact H1
  isplitl [H2]; · iexact H2
  isplitl [H3]; · iexists _; iexact H3
  isplitl [H4]
  · iexists (k0_pay8 (F := Ideal) (xnAt m c t) (wbuf m c t d3))
    rw [win0_4.fill_congr_cut (grid0.coords t) (val_logits m c t d3 _ rfl)]
    unfold owns; iexists _; isplitr
    swap; · iexact H4
    ipureintro; exact pC_4 ..
  unfold owns; iexists _; isplitr
  swap; · iexact H5
  ipureintro
  refine (pC_5 ..).trans ?_
  rw [val_m m c t d3 _ rfl _ (mAt_pred m c t h0), val_l m c t d3 _ rfl _ _ (mAt_pred m c t h0) (lAt_pred m c t h0),
    val_t m c t d3 _ rfl _ (tAt_pred m c t h0)]
  exact val_nll m c t h1

/-- The body at any point: the closed forms of the two branch conditions say which case the point is in. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 63 = 0
  · exact sound_body_A m c t h0
  · by_cases h1 : t.val % 63 = 62
    · exact sound_body_C m c t h0 h1
    · exact sound_body_B m c t h0 h1

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- From any memory with zero counters every weakly fair execution of @main terminates, and every final state has every array
    of the pipeline at what the library computes from the proof data and every other unscoped buffer as the host lines after
    the region leave it. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hin := hin m) (hout := hout m)

end Cert.KernelIdeal.Hand

end
-- ==== Proof.IFinal.lean ====
/-
  The two result arrays of the region after its last point, in closed form: the logits array holds every row's logit against
  every vocabulary row (the tiles written back cover it, the last tile's write-back cut at the table's end), and the row-loss
  array holds every row's running-form loss (written back once per row block, at its last tile).
-/
import proofs.«408325_j68298569941243_3_alg».proof.Proof.IDat

set_option maxRecDepth 16384

noncomputable section

namespace Cert.KernelIdeal.Hand

open Cert.KernelIdeal Cert.KernelIdeal.Gen Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The two output windows' block indices over the grid: the logits tile moves with the row block and the vocabulary tile, the
    row-loss block with the row block only. -/
theorem idx45_facts : ∀ t : Fin cfg0.N, win0_4.index t (0 : Fin 2) = t.val / 63 ∧ win0_4.index t (1 : Fin 2) = t.val % 63
    ∧ win0_5.index t (0 : Fin 2) = t.val / 63 ∧ win0_5.index t (1 : Fin 2) = 0 :=
  (by decide +kernel : ∀ t : Fin grid0.N, _)

/-- What the logits tile's write-back moves: all 1024 rows, and the columns of the tile inside the table (all 512, or the 384 left
    at the last tile). -/
theorem xsize4_facts : ∀ t : Fin cfg0.N, win0_4.xsize (grid0.coords t) (0 : Fin 2) = 1024
    ∧ win0_4.xsize (grid0.coords t) (1 : Fin 2) = min 512 (32128 - 512 * (t.val % 63)) :=
  (by decide +kernel : ∀ t : Fin grid0.N, _)

/-- An index of the row-loss array is in point `t`'s block iff each coordinate is in the block's range on its axis. -/
theorem mem_blk5 (t : Fin cfg0.N) (i : S2048x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v4_1).slice (win0_5.rect t)).set ↔ _
  rw [View.set_slice_whole, Rect.mem_set_unit]
  exact Iff.rfl

/-- An index of the logits array is in point `t`'s block iff each coordinate is in the range the write-back moves on its axis. -/
theorem mem_blk4 (t : Fin cfg0.N) (i : S2048x32128.Idx) :
    i ∈ ((cfg0.win 4).blk t).view.set ↔ ∀ a : Fin 2, win0_4.index t a * S1024x512.size a ≤ (i a).val
      ∧ (i a).val < win0_4.index t a * S1024x512.size a + win0_4.xsize (grid0.coords t) a := by
  show i ∈ ((View.whole main_v4_0).slice (win0_4.rect t)).set ↔ _
  rw [View.set_slice_whole, Rect.mem_set_unit]
  exact Iff.rfl

/-- The logits array after the region. -/
theorem final4 (c : Dev nD) :
    ((dats m 0 c).arrAt 4 cfg0.N : S2048x32128.Idx → EReal) = fun y => zrow m c (i0 y) (i1 y) := by
  refine (dats m 0 c).arrAt_eq_of_cover 4 _ (fun t hf => ?_) (fun i => ?_)
  · show (cfg0.win 4).cut (grid0.coords t) ((dats m 0 c).after 4 t) = _
    rw [after0_4]
    funext j
    obtain ⟨e0, e1, -, -⟩ := idx45_facts t
    obtain ⟨x0, x1⟩ := xsize4_facts t
    have hj0 : (j 0).val < win0_4.xsize (grid0.coords t) (0 : Fin 2) := (j 0).isLt
    have hj1 : (j 1).val < win0_4.xsize (grid0.coords t) (1 : Fin 2) := (j 1).isLt
    rw [x0] at hj0
    rw [x1] at hj1
    have h' : 512 * (t.val % 63) + (i1 (win0_4.xinj (grid0.coords t) j)).val < NV := by
      show 512 * (t.val % 63) + (j 1).val < 32128
      omega
    have er : rowAt t (i0 (win0_4.xinj (grid0.coords t) j)) = i0 (((cfg0.win 4).blk t).view.emb j) :=
      Fin.ext (by
        show 1024 * (t.val / 63) + (j 0).val = win0_4.index t (0 : Fin 2) * 1024 + 1 * (j 0).val
        rw [e0]; omega)
    have ec : (⟨512 * (t.val % 63) + (i1 (win0_4.xinj (grid0.coords t) j)).val, h'⟩ : Fin NV) = i1 (((cfg0.win 4).blk t).view.emb j) :=
      Fin.ext (by
        show 512 * (t.val % 63) + (j 1).val = win0_4.index t (1 : Fin 2) * 512 + 1 * (j 1).val
        rw [e1]; omega)
    show logitsAt m c t (win0_4.xinj (grid0.coords t) j)
      = zrow m c (i0 (((cfg0.win 4).blk t).view.emb j)) (i1 (((cfg0.win 4).blk t).view.emb j))
    unfold logitsAt
    rw [dif_pos h', er, ec]
  · have hN : cfg0.N = 126 := N_0
    have hr : (i 0).val < 2048 := (i 0).isLt
    have hv : (i 1).val < 32128 := (i 1).isLt
    have htN : 63 * ((i 0).val / 1024) + (i 1).val / 512 < cfg0.N := by omega
    obtain ⟨e0, e1, -, -⟩ := idx45_facts ⟨63 * ((i 0).val / 1024) + (i 1).val / 512, htN⟩
    obtain ⟨x0, x1⟩ := xsize4_facts ⟨63 * ((i 0).val / 1024) + (i 1).val / 512, htN⟩
    refine ⟨⟨63 * ((i 0).val / 1024) + (i 1).val / 512, htN⟩, flush0_4 _, ?_⟩
    rw [mem_blk4]
    intro a
    match a with
    | ⟨0, _⟩ =>
      show win0_4.index ⟨63 * ((i 0).val / 1024) + (i 1).val / 512, htN⟩ (0 : Fin 2) * 1024 ≤ (i 0).val
        ∧ (i 0).val < win0_4.index ⟨63 * ((i 0).val / 1024) + (i 1).val / 512, htN⟩ (0 : Fin 2) * 1024
            + win0_4.xsize (grid0.coords ⟨63 * ((i 0).val / 1024) + (i 1).val / 512, htN⟩) (0 : Fin 2)
      rw [e0, x0]
      show (63 * ((i 0).val / 1024) + (i 1).val / 512) / 63 * 1024 ≤ (i 0).val
        ∧ (i 0).val < (63 * ((i 0).val / 1024) + (i 1).val / 512) / 63 * 1024 + 1024
      omega
    | ⟨1, _⟩ =>
      show win0_4.index ⟨63 * ((i 0).val / 1024) + (i 1).val / 512, htN⟩ (1 : Fin 2) * 512 ≤ (i 1).val
        ∧ (i 1).val < win0_4.index ⟨63 * ((i 0).val / 1024) + (i 1).val / 512, htN⟩ (1 : Fin 2) * 512
            + win0_4.xsize (grid0.coords ⟨63 * ((i 0).val / 1024) + (i 1).val / 512, htN⟩) (1 : Fin 2)
      rw [e1, x1]
      show (63 * ((i 0).val / 1024) + (i 1).val / 512) % 63 * 512 ≤ (i 1).val
        ∧ (i 1).val < (63 * ((i 0).val / 1024) + (i 1).val / 512) % 63 * 512
            + min 512 (32128 - 512 * ((63 * ((i 0).val / 1024) + (i 1).val / 512) % 63))
      omega

/-- The row-loss array after the region. -/
theorem final5 (c : Dev nD) :
    ((dats m 0 c).arrAt 5 cfg0.N : S2048x1.Idx → EReal) = fun y => nllK (zrow m c (i0 y)) (lrow m c (i0 y)) := by
  refine (dats m 0 c).arrAt_eq_of_cover 5 _ (fun t hf => ?_) (fun i => ?_)
  · show (cfg0.win 5).cut (grid0.coords t) ((dats m 0 c).after 5 t) = _
    rw [after0_5]
    funext j
    obtain ⟨-, -, e0, e1⟩ := idx45_facts t
    have e : rowAt t (i0 (win0_5.xinj (grid0.coords t) j)) = i0 (((cfg0.win 5).blk t).view.emb j) :=
      Fin.ext (by
        show 1024 * (t.val / 63) + (j 0).val = win0_5.index t (0 : Fin 2) * 1024 + 1 * (j 0).val
        rw [e0]; omega)
    show nllK (zrow m c (rowAt t (i0 (win0_5.xinj (grid0.coords t) j)))) (lrow m c (rowAt t (i0 (win0_5.xinj (grid0.coords t) j))))
      = nllK (zrow m c (i0 (((cfg0.win 5).blk t).view.emb j))) (lrow m c (i0 (((cfg0.win 5).blk t).view.emb j)))
    rw [e]
  · have hN : cfg0.N = 126 := N_0
    have hr : (i 0).val < 2048 := (i 0).isLt
    have hc : (i 1).val < 1 := (i 1).isLt
    have htN : 63 * ((i 0).val / 1024) + 62 < cfg0.N := by omega
    obtain ⟨-, -, e0, e1⟩ := idx45_facts ⟨63 * ((i 0).val / 1024) + 62, htN⟩
    refine ⟨⟨63 * ((i 0).val / 1024) + 62, htN⟩, (flush0_5 _).mpr (by show (63 * ((i 0).val / 1024) + 62) % 63 = 62; omega), ?_⟩
    rw [mem_blk5]
    intro a
    match a with
    | ⟨0, _⟩ =>
      show win0_5.index ⟨63 * ((i 0).val / 1024) + 62, htN⟩ (0 : Fin 2) * 1024 ≤ (i 0).val
        ∧ (i 0).val < win0_5.index ⟨63 * ((i 0).val / 1024) + 62, htN⟩ (0 : Fin 2) * 1024 + 1024
      rw [e0]
      show (63 * ((i 0).val / 1024) + 62) / 63 * 1024 ≤ (i 0).val ∧ (i 0).val < (63 * ((i 0).val / 1024) + 62) / 63 * 1024 + 1024
      omega
    | ⟨1, _⟩ =>
      show win0_5.index ⟨63 * ((i 0).val / 1024) + 62, htN⟩ (1 : Fin 2) * 1 ≤ (i 1).val
        ∧ (i 1).val < win0_5.index ⟨63 * ((i 0).val / 1024) + 62, htN⟩ (1 : Fin 2) * 1 + 1
      rw [e1]
      omega

end Cert.KernelIdeal.Hand

end
-- ==== Proof.KTail.lean ====
/-
  The host lines after the region, read at the extended reals: the scores result is the region's logits array laid out as
  [4, 512, 32128], and the loss result is the mean, over the rows whose label is not the ignored word, of the region's row losses.
-/
import proofs.«408325_j68298569941243_3_alg».proof.Proof.Gen.KernelIdeal.Frame
import proofs.«408325_j68298569941243_3_alg».proof.Proof.Spec
import Idealize.ShloMosaic.Lib.ValueIdx
import Idealize.ShloMosaic.Lib.StableHlo.Run
import Idealize.ShloMosaic.PureOps.Ideal.Laws
import Idealize.ShloMosaic.Lib.Pipeline.Value
import Idealize.ShloMosaic.Lib.IdealHost

noncomputable section

namespace Cert.KernelIdeal.Tail

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)
variable (dats : (p : Fin 1) → (c : Dev nD) → Dat τ (Elt Ideal) Unit ℕ (UR sig nD τ) ℕ (cfgs p) c)

/-- The scores result after the host tail: the logits array after the region, entry (b, s, v) read at (512 b + s, v). -/
theorem tail_pred (c : Dev nD) (i : S4x512x32128.Idx) :
    Pipeline.afterTail₀ cfgs dats 0 (V0 m) [hostOps1, hostOps1_1, hostOps1_2] c main_v5 i
      = ((dats 0 c).arrAt 4 cfg0.N : S2048x32128.Idx → EReal) (ix2 (rowOf (i 0) (i 1)) (i 2)) := by
  unfold Pipeline.afterTail₀
  simp only [hostOps1, hostOps1_1, hostOps1_2, List.flatten_cons, List.flatten_nil, List.append_nil, List.cons_append, List.nil_append]
  after_results
  have e := Pipeline.withArrays_arr spec0 launch0.win.arr_inj c (V0 m c) (fun w => (dats 0 c).arrAt w cfg0.N) 4
  refine (shapeCast_apply (s := S2048x32128) (t := S4x512x32128) _ shapeCasts_S2048x32128_S4x512x32128 i (ix2 (rowOf (i 0) (i 1)) (i 2)) ?_).trans (congrFun e _)
  rw [Shape.rowMajor_val_three, Shape.rowMajor_val_two]
  rfl

/-- A rank-1 index set of extent n is Fin n, through its one coordinate. -/
def idxEquiv1 {n : Nat} : Fin n ≃ (⟨1, ![n]⟩ : Shape).Idx where
  toFun := ix1
  invFun j := j 0
  left_inv _ := rfl
  right_inv j := (eq_ix1 j).symm

/-- A sum over a rank-1 index set is the sum over its coordinate. -/
theorem sum_idx1 {n : Nat} (f : (⟨1, ![n]⟩ : Shape).Idx → EReal) : ∑ j, f j = ∑ r : Fin n, f (ix1 r) :=
  (Equiv.sum_comp idxEquiv1 f).symm

/-- The masked mean as the host spells it, over any 2048 labels and row losses: the total of the losses where the label is not the
    word of −100 (a zero elsewhere), divided by the larger of the count of such rows and one. The mask bit of a row is 0 at the
    ignored word and 1 elsewhere; the select reads the loss or zero by it, and the bit converted to a float is 0 or 1. -/
theorem loss_pure (hb : S_.BroadcastsInDim S2048 (![] : Fin 0 → Fin S2048.rank)) (hr : S2048.ReducesTo [0] S_) (hu : 0 < S_.numel)
    (lab : IVec S2048 32) (nll : FVec Ideal S2048 .f32) (i : S_.Idx) :
    Host.divf (F := Ideal)
      (Host.reduceAdd (select (cmpi .ne lab (broadcastInDim S2048 ![] hb (constantI S_ 32 4294967196#32))) nll
          (broadcastInDim S2048 ![] hb (constant (F := Ideal) S_ .f32 0#32))) (constant S_ .f32 0#32) hr hu)
      (maximumf (Host.reduceAdd (uitofp .f32 (cmpi .ne lab (broadcastInDim S2048 ![] hb (constantI S_ 32 4294967196#32))))
          (constant S_ .f32 0#32) hr hu) (constant S_ .f32 1065353216#32)) i
    = Ideal.div (0 + ∑ r : Fin 2048, if lab (ix1 r) = ign then 0 else nll (ix1 r))
        (max (0 + ∑ r : Fin 2048, if lab (ix1 r) = ign then (0 : EReal) else 1) 1) := by
  rw [hostDivf_apply, maximumf_apply, hostReduceAdd_apply, hostReduceAdd_apply, constant_apply, constant_apply,
    Ideal.hostReduceAdd_total hr (fun b => b.elim0), Ideal.hostReduceAdd_total hr (fun b => b.elim0),
    Ideal.ofBits_zero_f32, Ideal.ofBits_one_f32, sum_idx1, sum_idx1]
  have hbit : ∀ r : Fin 2048, cmpi .ne lab (broadcastInDim S2048 ![] hb (constantI S_ 32 4294967196#32)) (ix1 r)
      = if lab (ix1 r) = ign then 0#1 else 1#1 := by
    intro r
    show IntOp.cmpi .ne (lab (ix1 r)) (broadcastInDim S2048 ![] hb (constantI S_ 32 4294967196#32) (ix1 r)) = _
    rw [broadcastInDim_scalar_apply]
    show BitVec.ofBool (lab (ix1 r) != 4294967196#32) = _
    by_cases h : lab (ix1 r) = ign
    · rw [if_pos h, h]; rfl
    · rw [if_neg h]
      have hne : (lab (ix1 r) != 4294967196#32) = true := by simpa [ign] using h
      rw [hne]; rfl
  have e1 : ∀ r : Fin 2048, select (cmpi .ne lab (broadcastInDim S2048 ![] hb (constantI S_ 32 4294967196#32))) nll
      (broadcastInDim S2048 ![] hb (constant (F := Ideal) S_ .f32 0#32)) (ix1 r) = if lab (ix1 r) = ign then 0 else nll (ix1 r) := by
    intro r
    rw [select_apply, hbit r, broadcastInDim_scalar_apply, constant_apply, Ideal.ofBits_zero_f32]
    by_cases h : lab (ix1 r) = ign
    · rw [if_pos h, if_pos h]; exact select_zero _ _
    · rw [if_neg h, if_neg h]; exact select_one _ _
  have e2 : ∀ r : Fin 2048, uitofp (F := Ideal) .f32 (cmpi .ne lab (broadcastInDim S2048 ![] hb (constantI S_ 32 4294967196#32))) (ix1 r)
      = if lab (ix1 r) = ign then (0 : EReal) else 1 := by
    intro r
    show ((((cmpi .ne lab (broadcastInDim S2048 ![] hb (constantI S_ 32 4294967196#32)) (ix1 r)).toNat : ℝ)) : EReal) = _
    rw [hbit r]
    by_cases h : lab (ix1 r) = ign
    · rw [if_pos h, if_pos h]; simp
    · rw [if_neg h, if_neg h]; simp
  simp only [e1, e2]

/-- The labels laid out as 2048 rows before the region: the [4, 512] label argument in row-major order. -/
theorem V0_main_v1 (c : Dev nD) :
    (V0 m c (Proc.devRef .tc main_v1) : S2048.Idx → BitVec 32)
      = shapeCast S2048 (m ((c.tc : Thread nD τ).loc main_arg1) : S4x512.Idx → BitVec 32) shapeCasts_S4x512_S2048 := by
  dsimp only [V0]
  simp only [hostOps0, List.flatten_cons, List.flatten_nil, List.append_nil, List.cons_append, List.nil_append]
  after_results
  rfl

/-- The loss result after the host tail: the masked mean of the row-loss array after the region. -/
theorem tail_loss (c : Dev nD) (i : S_.Idx) :
    Pipeline.afterTail₀ cfgs dats 0 (V0 m) [hostOps1, hostOps1_1, hostOps1_2] c main_v14 i
      = lossArr (fun r => ((dats 0 c).arrAt 5 cfg0.N : S2048x1.Idx → EReal) (ix2 r (0 : Fin 1)))
          (labof (m ((c.tc : Thread nD τ).loc main_arg1))) := by
  unfold Pipeline.afterTail₀
  simp only [hostOps1, hostOps1_1, hostOps1_2, List.flatten_cons, List.flatten_nil, List.append_nil, List.cons_append, List.nil_append]
  after_results
  -- the labels are no array of the region: they are still the reshaped label argument
  have hlab : (Pipeline.withArrays spec0 c (V0 m c) (fun w => (dats 0 c).arrAt w cfg0.N) (Proc.devRef .tc main_v1) : S2048.Idx → BitVec 32)
      = shapeCast S2048 (m ((c.tc : Thread nD τ).loc main_arg1) : S4x512.Idx → BitVec 32) shapeCasts_S4x512_S2048 :=
    (Pipeline.withArrays_of_ne _ c (V0 m c) _ main_v1 (by exact (by decide : ∀ w, Pipeline.arrRef spec0 w ≠ main_v1))).trans (V0_main_v1 m c)
  -- the row losses are the region's sixth array
  have hnll := Pipeline.withArrays_arr spec0 launch0.win.arr_inj c (V0 m c) (fun w => (dats 0 c).arrAt w cfg0.N) 5
  refine (loss_pure bcast_S_S2048 reducesTo_S2048_S_d0 h_S_
    (Pipeline.withArrays spec0 c (V0 m c) (fun w => (dats 0 c).arrAt w cfg0.N) (Proc.devRef .tc main_v1))
    (shapeCast S2048 (Pipeline.withArrays spec0 c (V0 m c) (fun w => (dats 0 c).arrAt w cfg0.N) (Proc.devRef .tc main_v4_1) : S2048x1.Idx → EReal) shapeCasts_S2048x1_S2048) i).trans ?_
  -- row r of the flat labels is entry (r / 512, r % 512) of the argument; row r of the flat losses is entry (r, 0) of the array
  have hL : ∀ r : Fin 2048, (Pipeline.withArrays spec0 c (V0 m c) (fun w => (dats 0 c).arrAt w cfg0.N) (Proc.devRef .tc main_v1) : S2048.Idx → BitVec 32) (ix1 r) = labof (m ((c.tc : Thread nD τ).loc main_arg1)) r := fun r =>
    (congrFun hlab (ix1 r)).trans (shapeCast_apply (s := S4x512) (t := S2048) _ shapeCasts_S4x512_S2048 (ix1 r) (ix2 (rowB r) (rowS r)) (by
      rw [Shape.rowMajor_val_two, Shape.rowMajor_val_one]
      show r.val / 512 * 512 + r.val % 512 = r.val
      omega))
  have hN : ∀ r : Fin 2048, shapeCast S2048 (Pipeline.withArrays spec0 c (V0 m c) (fun w => (dats 0 c).arrAt w cfg0.N) (Proc.devRef .tc main_v4_1) : S2048x1.Idx → EReal) shapeCasts_S2048x1_S2048 (ix1 r)
      = ((dats 0 c).arrAt 5 cfg0.N : S2048x1.Idx → EReal) (ix2 r (0 : Fin 1)) := fun r =>
    (shapeCast_apply (s := S2048x1) (t := S2048) _ shapeCasts_S2048x1_S2048 (ix1 r) (ix2 r (0 : Fin 1)) (by
      rw [Shape.rowMajor_val_two, Shape.rowMajor_val_one]
      show r.val * 1 + 0 = r.val
      omega)).trans (congrFun hnll _)
  unfold lossArr
  simp only [hL, hN]

end Cert.KernelIdeal.Tail

end
-- ==== Proof.KValue.lean ====
/-
  The idealized kernel's results in the specification's words: from the region's run to its closed-form arrays, through the
  host lines after it, the loss result is the mean over the rows with a proper label of the running-form row losses and the
  scores result is every row's logits; the arguments end as launched.
-/
import proofs.«408325_j68298569941243_3_alg».proof.Proof.IFinal
import proofs.«408325_j68298569941243_3_alg».proof.Proof.KTail

set_option maxRecDepth 16384

noncomputable section

namespace Cert.KernelIdeal.Hand

open Cert.KernelIdeal Cert.KernelIdeal.Gen Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.Tail

variable (m : (ℓ : Loc nD τ sig) → Buf (Elt Ideal) ℓ) (ρ : Dev nD → PrngReg)

/-- The kernel program's run, read at its two results and its four arguments. -/
theorem kernel_value
    (h : θ_run defs (onTc (τ := τ) (main (F := Ideal))) (s₀ m ρ)
      (Pipeline.FramePost cfgs (dats m) 0 (Pipeline.afterTail₀ cfgs (dats m) 0 (V0 m) [hostOps1, hostOps1_1, hostOps1_2]))) :
    θ_run defs (onTc (τ := τ) (main (F := Ideal))) ⟨m, fun _ => 0, ρ⟩ (fun r => ∀ c : Dev nD,
      r.2.mem ((c.tc : Thread nD τ).loc main_v14)
          = (fun _ => lossArr (fun q => nllK (zrow m c q) (lrow m c q)) (labof (m ((c.tc : Thread nD τ).loc main_arg1))))
      ∧ r.2.mem ((c.tc : Thread nD τ).loc main_v5)
          = predArr (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨?_, ?_, ?_, ?_, ?_, ?_⟩) h
  · refine ((h c).2 main_v14 (Pipeline.mem_restRefs_of main_v14 (by decide) (by decide))).trans ?_
    funext i
    rw [tail_loss m (dats m) c i, final5 m c]
    rfl
  · refine ((h c).2 main_v5 (Pipeline.mem_restRefs_of main_v5 (by decide) (by decide))).trans ?_
    funext i
    rw [tail_pred m (dats m) c i, final4 m c]
    rfl
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).1 3).trans ((((dats m) 0 c).arrAt_in 3 rfl _).trans ((A_eq m c 3).trans (V_main_arg3 m c)))

end Cert.KernelIdeal.Hand

end
-- ==== Proof.RefValue.lean ====
/-
  What the reference computes, read back in the vocabulary of the specification: its scores are the logits of the normalised
  rows, its loss the mean over the rows with a proper label of the one-pass log-sum-exp loss read at the label's column.

  The road: the reference's run gives each result as the composed term of the arguments; that term is read stage by stage at
  an index. The scores: the sum of squares over a row, its mean plus `eps`, the reciprocal root, the gain, the inner product
  with a row of the weights. The loss: a row's maximum from −∞ and the sum of exponentials of the shifted logits; the label made
  safe (column 0 at the ignored word), neither negative nor past the vocabulary's end under the hypothesis on the labels, so
  that the gather's start index, read signed and clamped, is the safe label and its range test passes; the negated gathered
  value is the one-pass loss at that column; the select on "not the ignored word" and the two sums over the rows are the
  specification's masked mean.
-/
import proofs.«408325_j68298569941243_3_alg».proof.Proof.RefRun
import proofs.«408325_j68298569941243_3_alg».proof.Proof.RefRead
import proofs.«408325_j68298569941243_3_alg».proof.Proof.Spec
import Idealize.ShloMosaic.Lib.Pipeline.Value
import Idealize.ShloMosaic.Lib.ValueIdx
import Idealize.ShloMosaic.Lib.ValueIdxRank1
import Idealize.ShloMosaic.Lib.IdealHost
import Idealize.ShloMosaic.Lib.StableHlo.Predicate
import Idealize.ShloMosaic.PureOps.Ideal.Laws

noncomputable section

namespace Cert.ReferenceIdeal.RefValue

open Idealize.ShloMosaic Idealize.ShloMosaic.TcCoe Idealize.SL.Sem Cert.ReferenceIdeal Cert.Spec
open Cert.ReferenceIdeal.Gen Idealize.ShloMosaic.StableHlo Idealize.ShloMosaic.ValueIdx Cert.ReferenceIdeal.Read

/-! ## Library-level facts: the gather, the two reduces, the label words -/

/-- The batched gather of one column per row, read at a result index: the operand at the row and the start index
    read signed and clamped into the columns. -/
theorem gather_apply {α : Type} (x : S2048x32128.Idx → α) (idx : IVec S2048x1x1 32) (j : S2048x1.Idx) :
    Host.gather gather_S2048x32128_S2048x1x1_S2048x1_n_1_0_0_1_2_11 x idx j
      = x (ix2 (⟨(j 0).val, idx2_lt0 j⟩ : Fin 2048)
            (⟨min (idx (takeIdx j)).toInt.toNat 32127, by omega⟩ : Fin 32128)) := by
  unfold Host.gather
  congr 1
  funext a
  refine Fin.ext ?_
  match a with
  | ⟨0, _⟩ =>
    show gather_S2048x32128_S2048x1x1_S2048x1_n_1_0_0_1_2_11.start j idx 0
      + gather_S2048x32128_S2048x1x1_S2048x1_n_1_0_0_1_2_11.batchCoord j 0
      + gather_S2048x32128_S2048x1x1_S2048x1_n_1_0_0_1_2_11.offCoord j 0 = (j 0).val
    rw [GatherDims.start_batching _ _ _ _ (show (0 : Fin 2) ∈ gather_S2048x32128_S2048x1x1_S2048x1_n_1_0_0_1_2_11.operandBatchingDims from List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ gather_S2048x32128_S2048x1x1_S2048x1_n_1_0_0_1_2_11.operandBatchingDims from List.mem_singleton.mpr rfl)]
    rfl
  | ⟨1, _⟩ =>
    show gather_S2048x32128_S2048x1x1_S2048x1_n_1_0_0_1_2_11.start j idx 1
      + gather_S2048x32128_S2048x1x1_S2048x1_n_1_0_0_1_2_11.batchCoord j 1
      + gather_S2048x32128_S2048x1x1_S2048x1_n_1_0_0_1_2_11.offCoord j 1 = _
    rw [GatherDims.batchCoord_eq_zero _ _ _ (show (1 : Fin 2) ∉ gather_S2048x32128_S2048x1x1_S2048x1_n_1_0_0_1_2_11.operandBatchingDims by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x32128_S2048x1x1_S2048x1_n_1_0_0_1_2_11.startIndexMap from List.mem_singleton.mpr rfl)]
    have hsi : gather_S2048x32128_S2048x1x1_S2048x1_n_1_0_0_1_2_11.siIdx j ⟨List.idxOf (1 : Fin 2) gather_S2048x32128_S2048x1x1_S2048x1_n_1_0_0_1_2_11.startIndexMap,
        List.idxOf_lt_length_iff.2 (List.mem_singleton.mpr rfl)⟩ = takeIdx j := by
      funext b; refine Fin.ext ?_
      match b with
      | ⟨0, _⟩ => rfl
      | ⟨1, _⟩ => rfl
      | ⟨2, _⟩ => rfl
    rw [hsi]
    rfl

open Idealize.ShloMosaic.StableHlo.Predicate

/-- The f32 word of −∞ is the bottom of the extended reals. -/
theorem ofBits_bot : Ideal.ofBits .f32 0xFF800000#32 = ⊥ := by simp [Ideal.ofBits, Ideal.ieee]

/-- From −∞ the reduce with a maximum body along the columns, at a row, is the fold of the maximum over that row. -/
theorem hostReduce_max_row (x : FVec Ideal S2048x32128 .f32) (j : S2048.Idx) :
    Host.reduce FloatOps.maximumf x (constant S_ .f32 0xFF800000#32) reducesTo_S2048x32128_S2048_d1 h_S_ j
      = Finset.univ.fold max ⊥ (fun v : Fin NV => x (ix2 (⟨(j 0).val, (j 0).isLt⟩ : Fin 2048) v)) := by
  have h : S2048x32128.Reduces [1] S2048 := by decide
  rw [Host.reduce_eq_fold_single FloatOps.maximumf x _ reducesTo_S2048x32128_S2048_d1 h h_S_]
  have hb : (constant S_ .f32 0xFF800000#32 : FVec Ideal S_ .f32) (Shape.Idx.first h_S_) = ⊥ := ofBits_bot
  rw [hb]
  have hf : (x ∘ h.lift j) = fun v : Fin NV => x (ix2 (⟨(j 0).val, (j 0).isLt⟩ : Fin 2048) v) :=
    funext fun k => congrArg x (funext fun c => Fin.ext (by fin_cases c <;> rfl))
  rw [hf]
  rfl

/-- A reduce with a conjunction body from the true bit over an array of true bits is the true bit. -/
theorem hostReduce_and_ones {s t u : Shape} {axes : List (Fin s.rank)} (x : IVec s 1) (init : IVec u 1)
    (h' : s.ReducesTo axes t) (hu : 0 < u.numel) (hx : ∀ i, x i = 1#1) (hi : ∀ i, init i = 1#1) (j : t.Idx) :
    Host.reduce IntOp.andi x init h' hu j = 1#1 := by
  rw [Host.reduce_eq_fold, hi]
  generalize (Finset.univ.filter fun i => h'.drop i = j) = S
  induction S using Finset.induction_on with
  | empty => rfl
  | insert a S ha ih => rw [Finset.fold_insert ha, ih, hx]; rfl

/-- The label the reference gathers at: the label, or column 0 at the ignored word. -/
def safe (w : BitVec 32) : BitVec 32 := if w = ign then 0#32 else w

theorem safe_lt {w : BitVec 32} (hw : w = ign ∨ w.toNat < 32128) : (safe w).toNat < 32128 := by
  unfold safe
  by_cases h : w = ign
  · rw [if_pos h]; decide
  · rw [if_neg h]; exact hw.resolve_left h

/-- The column the reference's gather reads for a label word: the safe label read signed and clamped into the columns. -/
def col (w : BitVec 32) : Fin NV := ⟨min (safe w).toInt.toNat 32127, by show _ < 32128; omega⟩

theorem col_val {w : BitVec 32} (hne : w ≠ ign) (h : w.toNat < 32128) : (col w).val = w.toNat := by
  have hs : safe w = w := if_neg hne
  show min (safe w).toInt.toNat 32127 = w.toNat
  rw [hs, toInt_eq_toNat_of_lt (by omega : w.toNat < 2 ^ 31), Int.toNat_natCast]
  omega

/-- The comparison "differs" is the true bit exactly on different words. -/
theorem cmpi_ne_iff {a b : BitVec 32} : IntOp.cmpi .ne a b = 1#1 ↔ a ≠ b := by
  simp only [IntOp.cmpi, ofBool_eq_one_iff, bne_iff_ne]

/-- The select on "not the ignored word" is the `if` on the label being the ignored word. -/
theorem select_ne_ign {α : Type} (w : BitVec 32) (a b : α) :
    Scalar.select (IntOp.cmpi .ne w 4294967196#32) a b = if w = ign then b else a := by
  show (if IntOp.cmpi .ne w 4294967196#32 = 1#1 then a else b) = _
  by_cases h : w = ign
  · rw [if_pos h, if_neg (fun hc => (cmpi_ne_iff (b := 4294967196#32)).mp hc h)]
  · rw [if_neg h, if_pos ((cmpi_ne_iff (b := 4294967196#32)).mpr h)]

/-- The select on "not the ignored word" between the label and zero is the safe label. -/
theorem sel_eq_safe (w : BitVec 32) :
    Scalar.select (IntOp.cmpi .ne w 4294967196#32) w 0#32 = safe w := select_ne_ign w w 0#32

/-- A word below 2³¹ is not negative, so the wrap of negative indices leaves it. -/
theorem wrap_eq {s : BitVec 32} (hs : s.toNat < 32128) :
    Scalar.select (IntOp.cmpi .slt s 0#32) (IntOp.addi s 32128#32) s = s := by
  show (if IntOp.cmpi .slt s 0#32 = 1#1 then _ else _) = _
  rw [if_neg]
  intro h
  have := (slt_iff_toNat (by omega : s.toNat < 2 ^ 31) (by decide : (0#32 : BitVec 32).toNat < 2 ^ 31)).mp h
  simp at this

/-- A word below the vocabulary's size passes the range test. -/
theorem range_eq {s : BitVec 32} (hs : s.toNat < 32128) :
    IntOp.andi (IntOp.cmpi .sge s 0#32) (IntOp.cmpi .sle s 32127#32) = 1#1 := by
  have h1 : IntOp.cmpi .sge s 0#32 = 1#1 :=
    (sge_iff_toNat (by omega : s.toNat < 2 ^ 31) (by decide : (0#32 : BitVec 32).toNat < 2 ^ 31)).mpr (Nat.zero_le _)
  have h2 : IntOp.cmpi .sle s 32127#32 = 1#1 :=
    (sle_iff_toNat (by omega : s.toNat < 2 ^ 31) (by decide : (32127#32 : BitVec 32).toNat < 2 ^ 31)).mpr (by
      show s.toNat ≤ 32127; omega)
  rw [h1, h2]; rfl

/-- The bit "not the ignored word" read as a real is the indicator of a proper label. -/
theorem uitofp_ne_ign (w : BitVec 32) :
    (FloatOps.uitofp (F := Ideal) .f32 (IntOp.cmpi .ne w 4294967196#32) : EReal) = if w = ign then 0 else 1 := by
  show (((IntOp.cmpi .ne w 4294967196#32).toNat : ℝ) : EReal) = _
  by_cases h : w = ign
  · rw [eq_zero_of_ne_one (fun hc => (cmpi_ne_iff (b := 4294967196#32)).mp hc h), if_pos h]; simp
  · rw [(cmpi_ne_iff (b := 4294967196#32)).mpr h, if_neg h]; simp

abbrev A0 := (⟨S4x512x768, .f32⟩ : BufTy).Contents (Elt Ideal)
abbrev A1 := (⟨S4x512, .i32⟩ : BufTy).Contents (Elt Ideal)
abbrev A2 := (⟨S768, .f32⟩ : BufTy).Contents (Elt Ideal)
abbrev A3 := (⟨S32128x768, .f32⟩ : BufTy).Contents (Elt Ideal)

/-! ## The scores -/

/-- The reciprocal root the reference computes at a row is the specification's. -/
theorem rstd_eq (x0 : A0) (j : S4x512x1.Idx) :
    val_main_v7 (F := Ideal) x0 j = rstd (Xof x0) (rowOf (j 0) (j 1)) := by
  rw [val_main_v7_apply, val_main_v6_apply, val_main_v4_apply, val_main_v5_apply, val_main_v3_apply, val_main_v2_apply,
    val_main_v1_apply, val_main_cst_apply, val_main_cst_0_apply, val_main_cst_1_apply]
  have e : ∀ k : Fin 768, idx_main_v1 (idx_main_v2 j) k
      = ix3 (rowB (rowOf (j 0) (j 1))) (rowS (rowOf (j 0) (j 1))) k := fun k => funext fun a => Fin.ext (by
    have h0 : (j 0).val < 4 := (j 0).isLt
    have h1 : (j 1).val < 512 := (j 1).isLt
    match a with
    | ⟨0, _⟩ => show (j 0).val = ((j 0).val * 512 + (j 1).val) / 512; omega
    | ⟨1, _⟩ => show (j 1).val = ((j 0).val * 512 + (j 1).val) % 512; omega
    | ⟨2, _⟩ => rfl)
  simp only [val_main_v0_apply, e, Ideal.hostUnary_rsqrt_def, Ideal.addf_def, Ideal.hostDivf_def, Ideal.mulf_def, Ideal.ofBits_def,
    Ideal.ofBits_zero_f32, zero_add]
  rfl

/-- The normalised, gain-scaled element the reference multiplies into the weights is the specification's. -/
theorem xn_eq (x0 : A0) (x2 : A2) (i : S4x512x768.Idx) :
    val_main_v12 (F := Ideal) x0 x2 i = xn (Xof x0) (gof x2) (rowOf (i 0) (i 1)) (i 2) := by
  rw [val_main_v12_apply, val_main_v11_apply, val_main_v10_apply, val_main_v9_apply, val_main_v8_apply, rstd_eq]
  have h0 : (i 0).val < 4 := (i 0).isLt
  have h1 : (i 1).val < 512 := (i 1).isLt
  have e2 : idx_main_v10 (idx_main_v11 i) = ix1 (i 2) := funext fun a => Fin.ext (by match a with | ⟨0, _⟩ => rfl)
  have e0 : i = ix3 (rowB (rowOf (i 0) (i 1))) (rowS (rowOf (i 0) (i 1))) (i 2) := funext fun a => Fin.ext (by
    match a with
    | ⟨0, _⟩ => show (i 0).val = ((i 0).val * 512 + (i 1).val) / 512; omega
    | ⟨1, _⟩ => show (i 1).val = ((i 0).val * 512 + (i 1).val) % 512; omega
    | ⟨2, _⟩ => rfl)
  rw [e2]
  unfold xn Xof gof
  simp only [Ideal.mulf_def]
  rw [mul_comm]
  congr 2
  exact congrArg x0 e0

/-- The reference's scores are the logits of the normalised rows. -/
theorem scores_eq (x0 : A0) (x2 : A2) (x3 : A3) : val_main_v13 (F := Ideal) x0 x2 x3 = predArr x0 x2 x3 := by
  funext i
  rw [val_main_v13_apply]
  unfold predArr logit
  refine Finset.sum_congr rfl fun k _ => ?_
  rw [xn_eq]
  have er : ridx_main_v13 i k = ix2 (n0 := 32128) (n1 := 768) (i 2) k :=
    funext fun a => Fin.ext (by match a with | ⟨0, _⟩ => rfl | ⟨1, _⟩ => rfl)
  rw [er]
  rfl

/-! ## One row's loss -/

/-- One row's logits. -/
abbrev Z (x0 : A0) (x2 : A2) (x3 : A3) (r : Fin 2048) : Fin NV → EReal := logit (Xof x0) (gof x2) (Wof x3) r
/-- One row's maximum, from −∞. -/
abbrev Mx (x0 : A0) (x2 : A2) (x3 : A3) (r : Fin 2048) : EReal := max ⊥ (Finset.univ.fold max ⊥ (Z x0 x2 x3 r))
/-- One row's sum of exponentials of the shifted logits. -/
abbrev Sm (x0 : A0) (x2 : A2) (x3 : A3) (r : Fin 2048) : EReal :=
  0 + ∑ v : Fin NV, Ideal.exp (Z x0 x2 x3 r v - Mx x0 x2 x3 r)

/-- The reshaped scores at (row, column) are the row's logit at the column. -/
theorem v14_eq (x0 : A0) (x2 : A2) (x3 : A3) (i : S2048x32128.Idx) :
    val_main_v14 (F := Ideal) x0 x2 x3 i = Z x0 x2 x3 ⟨(i 0).val, (i 0).isLt⟩ ⟨(i 1).val, (i 1).isLt⟩ := by
  rw [val_main_v14_apply, scores_eq]
  unfold predArr
  have h0 : (i 0).val < 2048 := (i 0).isLt
  have h1 : (i 1).val < 32128 := (i 1).isLt
  have e1 : rowOf ((idx_main_v14 i) 0) ((idx_main_v14 i) 1) = ⟨(i 0).val, (i 0).isLt⟩ := Fin.ext (by
    show ((i 0).val * 32128 + (i 1).val) / 16449536 * 512 + ((i 0).val * 32128 + (i 1).val) / 32128 % 512 = (i 0).val
    omega)
  have e2 : (idx_main_v14 i) 2 = ⟨(i 1).val, (i 1).isLt⟩ := Fin.ext (by
    show ((i 0).val * 32128 + (i 1).val) % 32128 = (i 1).val
    omega)
  rw [e1, e2]
  rfl

theorem v14_ix2 (x0 : A0) (x2 : A2) (x3 : A3) (r : Fin 2048) (v : Fin NV) :
    val_main_v14 (F := Ideal) x0 x2 x3 (ix2 r v) = Z x0 x2 x3 r v := v14_eq x0 x2 x3 (ix2 r v)

/-- The reference's row maximum. -/
theorem Mx_eq (x0 : A0) (x2 : A2) (x3 : A3) (j : S2048.Idx) :
    val_main_call1_v2 (F := Ideal) x0 x2 x3 j = Mx x0 x2 x3 ⟨(j 0).val, (j 0).isLt⟩ := by
  rw [val_main_call1_v2_apply, val_main_call1_v1_apply, val_main_call1_cst_0_apply]
  unfold val_main_call1_v0 val_main_call1_cst
  rw [hostReduce_max_row]
  simp only [v14_ix2, Ideal.maximumf_def, Ideal.ofBits_def, ofBits_bot]

/-- The shifted logits. -/
theorem v5_eq (x0 : A0) (x2 : A2) (x3 : A3) (i : S2048x32128.Idx) :
    val_main_call1_v5 (F := Ideal) x0 x2 x3 i
      = Z x0 x2 x3 ⟨(i 0).val, (i 0).isLt⟩ ⟨(i 1).val, (i 1).isLt⟩ - Mx x0 x2 x3 ⟨(i 0).val, (i 0).isLt⟩ := by
  rw [val_main_call1_v5_apply, val_main_call1_v4_apply, val_main_call1_v3_apply, Mx_eq, v14_eq]
  rfl

/-- The reference's row sum of exponentials. -/
theorem Sm_eq (x0 : A0) (x2 : A2) (x3 : A3) (j : S2048.Idx) :
    val_main_call1_v7 (F := Ideal) x0 x2 x3 j = Sm x0 x2 x3 ⟨(j 0).val, (j 0).isLt⟩ := by
  rw [val_main_call1_v7_apply, val_main_call1_cst_1_apply]
  simp only [val_main_call1_v6_apply, v5_eq, Ideal.hostUnary_exp_def, Ideal.ofBits_def, Ideal.ofBits_zero_f32]

/-- The log-softmax at (row, column). -/
theorem v19_eq (x0 : A0) (x2 : A2) (x3 : A3) (i : S2048x32128.Idx) :
    val_main_v19 (F := Ideal) x0 x2 x3 i
      = (Z x0 x2 x3 ⟨(i 0).val, (i 0).isLt⟩ ⟨(i 1).val, (i 1).isLt⟩ - Mx x0 x2 x3 ⟨(i 0).val, (i 0).isLt⟩)
        - Ideal.log (Sm x0 x2 x3 ⟨(i 0).val, (i 0).isLt⟩) := by
  rw [val_main_v19_apply, v5_eq, val_main_call1_v10_apply, val_main_call1_v9_apply, val_main_call1_v8_apply, Sm_eq]
  simp only [Ideal.hostUnary_log_def, Ideal.subf_def]

theorem v19_ix2 (x0 : A0) (x2 : A2) (x3 : A3) (r : Fin 2048) (v : Fin NV) :
    val_main_v19 (F := Ideal) x0 x2 x3 (ix2 r v) = (Z x0 x2 x3 r v - Mx x0 x2 x3 r) - Ideal.log (Sm x0 x2 x3 r) :=
  v19_eq x0 x2 x3 (ix2 r v)

/-! ## The labels -/

theorem v15_eq (x1 : A1) (j : S2048.Idx) :
    val_main_v15 (F := Ideal) x1 j = labof x1 ⟨(j 0).val, (j 0).isLt⟩ := by
  rw [val_main_v15_apply]
  unfold labof
  exact congrArg x1 (funext fun a => Fin.ext (by match a with | ⟨0, _⟩ => rfl | ⟨1, _⟩ => rfl))

theorem v17_eq (x1 : A1) (j : S2048.Idx) :
    val_main_v17 (F := Ideal) x1 j = IntOp.cmpi .ne (labof x1 ⟨(j 0).val, (j 0).isLt⟩) 4294967196#32 := by
  rw [val_main_v17_apply, v15_eq, val_main_v16_apply, val_main_c_apply]

theorem v18_eq (x1 : A1) (j : S2048.Idx) :
    val_main_v18 (F := Ideal) x1 j = safe (labof x1 ⟨(j 0).val, (j 0).isLt⟩) := by
  rw [val_main_v18_apply, v17_eq, v15_eq, val_main_call0_v1_apply, val_main_call0_v0_apply, val_main_c_2_apply, sel_eq_safe]

/-- The start index the gather reads at a row: the safe label. -/
theorem c2v5_eq (x1 : A1) (hlab : LabOK (labof x1)) (i : S2048x1x1.Idx) :
    val_main_call2_v5 (F := Ideal) x1 i = safe (labof x1 ⟨(i 0).val, (i 0).isLt⟩) := by
  have h0 : (i 0).val < 2048 := (i 0).isLt
  have h1 : (i 1).val < 1 := (i 1).isLt
  have h2 : (i 2).val < 1 := (i 2).isLt
  have e : idx_main_v20 (idx_main_call2_v5 i) = ix1 (⟨(i 0).val, (i 0).isLt⟩ : Fin 2048) := funext fun a => Fin.ext (by
    match a with
    | ⟨0, _⟩ => show (((i 0).val * 1 + (i 1).val) * 1 + (i 2).val) / 1 = (i 0).val; omega)
  rw [val_main_call2_v5_apply, val_main_call2_v4_apply, val_main_call2_v1_apply, val_main_call2_v3_apply, val_main_v20_apply, e,
    v18_eq, val_main_call2_v0_apply, val_main_call2_c_apply, val_main_call2_v2_apply, val_main_call2_c_0_apply]
  exact wrap_eq (safe_lt (hlab _))

/-- Under proper labels every start index passes the range test. -/
theorem c2v12_eq (x1 : A1) (hlab : LabOK (labof x1)) (j : S2048x1.Idx) :
    val_main_call2_v12 (F := Ideal) x1 j = 1#1 := by
  unfold val_main_call2_v12
  refine hostReduce_and_ones _ _ _ _ (fun i => ?_) (fun _ => rfl) j
  rw [val_main_call2_v11_apply, val_main_call2_v7_apply, val_main_call2_v10_apply, c2v5_eq x1 hlab, val_main_call2_v6_apply,
    val_main_call2_c_2_apply, val_main_call2_v9_apply, val_main_call2_v8_apply, val_main_call2_c_1_apply]
  exact range_eq (safe_lt (hlab _))

/-- The gathered log-softmax at a row: read at the label's column. -/
theorem v21_eq (x0 : A0) (x1 : A1) (x2 : A2) (x3 : A3) (hlab : LabOK (labof x1)) (j : S2048x1.Idx) :
    val_main_v21 (F := Ideal) x0 x1 x2 x3 j
      = (Z x0 x2 x3 ⟨(j 0).val, (j 0).isLt⟩ (col (labof x1 ⟨(j 0).val, (j 0).isLt⟩)) - Mx x0 x2 x3 ⟨(j 0).val, (j 0).isLt⟩)
        - Ideal.log (Sm x0 x2 x3 ⟨(j 0).val, (j 0).isLt⟩) := by
  rw [val_main_v21_apply, c2v12_eq x1 hlab, select_one]
  unfold val_main_call2_v13
  rw [gather_apply]
  simp only [c2v5_eq x1 hlab]
  rw [v19_ix2]
  rfl

/-- The reference's per-row loss is the one-pass loss read at the gathered column. -/
theorem v23_eq (x0 : A0) (x1 : A1) (x2 : A2) (x3 : A3) (hlab : LabOK (labof x1)) (j : S2048.Idx) :
    val_main_v23 (F := Ideal) x0 x1 x2 x3 j
      = nllR (Z x0 x2 x3 ⟨(j 0).val, (j 0).isLt⟩) (col (labof x1 ⟨(j 0).val, (j 0).isLt⟩)) := by
  have e : idx_main_v22 j = ix2 (⟨(j 0).val, (j 0).isLt⟩ : Fin 2048) (0 : Fin 1) := funext fun a => Fin.ext (by
    match a with
    | ⟨0, _⟩ => exact Nat.div_one _
    | ⟨1, _⟩ => rfl)
  rw [val_main_v23_apply, val_main_v22_apply, e, v21_eq x0 x1 x2 x3 hlab]
  unfold nllR
  simp only [Ideal.hostNegf_def, Ideal.negf_def]

/-! ## The masked mean -/

theorem v24_eq (x0 : A0) (x1 : A1) (x2 : A2) (x3 : A3) (hlab : LabOK (labof x1)) (j : S2048.Idx) :
    val_main_v24 (F := Ideal) x0 x1 x2 x3 j
      = if labof x1 ⟨(j 0).val, (j 0).isLt⟩ = ign then 0
        else nllR (Z x0 x2 x3 ⟨(j 0).val, (j 0).isLt⟩) (col (labof x1 ⟨(j 0).val, (j 0).isLt⟩)) := by
  rw [val_main_v24_apply, v17_eq, v23_eq x0 x1 x2 x3 hlab, val_main_call3_v1_apply, val_main_call3_v0_apply, val_main_cst_3_apply,
    select_ne_ign]
  simp only [Ideal.ofBits_def, Ideal.ofBits_zero_f32]

theorem v26_eq (x1 : A1) (j : S2048.Idx) :
    val_main_v26 (F := Ideal) x1 j = if labof x1 ⟨(j 0).val, (j 0).isLt⟩ = ign then 0 else 1 := by
  rw [val_main_v26_apply, v17_eq, uitofp_ne_ign]

/-- A sum over the rank-1 index set of the rows is the sum over the rows. -/
theorem sum_rows (g : Fin 2048 → EReal) : ∑ j : S2048.Idx, g ⟨(j 0).val, (j 0).isLt⟩ = ∑ r : Fin 2048, g r :=
  Equiv.sum_comp (idxEquiv1 (n := 2048)) g

/-- The reference's loss is the mean over the rows with a proper label of the one-pass loss at the gathered column. -/
theorem loss_eq (x0 : A0) (x1 : A1) (x2 : A2) (x3 : A3) (hlab : LabOK (labof x1)) :
    val_main_v29 (F := Ideal) x0 x1 x2 x3
      = fun _ => lossArr (fun q => nllR (Z x0 x2 x3 q) (col (labof x1 q))) (labof x1) := by
  funext i
  rw [val_main_v29_apply, val_main_v25_apply, val_main_v28_apply, val_main_v27_apply, val_main_cst_4_apply, val_main_cst_5_apply,
    val_main_cst_6_apply]
  simp only [v24_eq x0 x1 x2 x3 hlab, v26_eq, Ideal.hostDivf_def, Ideal.maximumf_def, Ideal.ofBits_def, Ideal.ofBits_zero_f32,
    Ideal.ofBits_one_f32]
  have h1 := sum_rows (fun r => if labof x1 r = ign then (0 : EReal)
    else nllR (Z x0 x2 x3 r) (col (labof x1 r)))
  have h2 := sum_rows (fun r => if labof x1 r = ign then (0 : EReal) else 1)
  simp only [] at h1 h2
  rw [h1, h2]
  rfl

/-- The reference's run at the extended reals, under labels that are the ignored word or a vocabulary column: both results in
    the specification's closed forms, the loss through SOME column table that is the label on every row with a proper label. -/
theorem run_spec (m : (ℓ : Loc nD τ sig) → Buf (Elt Ideal) ℓ) (ρ : Dev nD → PrngReg)
    (hlab : ∀ c : Dev nD, LabOK (labof (m ((c.tc : Thread nD τ).loc main_arg1)))) :
    ∃ idx : Dev nD → Fin 2048 → Fin NV,
      (∀ (c : Dev nD) (r : Fin 2048), labof (m ((c.tc : Thread nD τ).loc main_arg1)) r ≠ ign →
        (idx c r).val = (labof (m ((c.tc : Thread nD τ).loc main_arg1)) r).toNat) ∧
      θ_run (defs (F := Ideal)) (onTc (τ := τ) (main (F := Ideal))) ⟨m, fun _ => 0, ρ⟩ (fun r => ∀ c : Dev nD,
        r.2.mem ((c.tc : Thread nD τ).loc main_v29)
            = (fun _ => lossArr (fun q => nllR (logit (Xof (m ((c.tc : Thread nD τ).loc main_arg0))) (gof (m ((c.tc : Thread nD τ).loc main_arg2)))
                (Wof (m ((c.tc : Thread nD τ).loc main_arg3))) q) (idx c q)) (labof (m ((c.tc : Thread nD τ).loc main_arg1))))
        ∧ r.2.mem ((c.tc : Thread nD τ).loc main_v13)
            = predArr (m ((c.tc : Thread nD τ).loc main_arg0)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  refine ⟨fun (c : Dev nD) (r : Fin 2048) => col (labof (m ((c.tc : Thread nD τ).loc main_arg1)) r), fun c r hr => ?_, ?_⟩
  · exact col_val hr ((hlab c r).resolve_left hr)
  · refine (θ_run (defs (F := Ideal)) _ _).mono (fun _ h c => ⟨(h c).1.trans ?_, (h c).2.1.trans ?_, (h c).2.2⟩)
      (Cert.ReferenceIdeal.Value.run (F := Ideal) m ρ)
    · rw [val_main_v29_eq]
      exact loss_eq _ _ _ _ (hlab c)
    · exact (val_main_v13_eq _ _ _).trans (scores_eq _ _ _)

end Cert.ReferenceIdeal.RefValue

end
-- ==== Proof.Bridge.lean ====
/-
  The running form of a row's loss is the one-pass form, on finite logits and an in-range label; and with it the two
  spellings of the mean loss agree. Also: finite inputs give finite logits.
-/
import proofs.«408325_j68298569941243_3_alg».proof.Proof.Spec

noncomputable section

namespace Cert.Bridge

open Idealize.ShloMosaic Cert.Spec

/-! ### Finite real sums and the two constants -/

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of the divisor is the real 768. -/
theorem c768_eq : c768 = ((768 : ℝ) : EReal) := by
  simp [c768, Ideal.ofBits, Ideal.ieee, -EReal.coe_mul]; norm_num

/-- The word of eps is a positive real. -/
theorem eps_pos : ∃ e : ℝ, 0 < e ∧ eps = (e : EReal) := by
  refine ⟨8796093 * (2 : ℝ) ^ (-43 : ℤ), by positivity, ?_⟩
  simp [eps, Ideal.ofBits, Ideal.ieee, -EReal.coe_mul]

/-- Finite rows, gain and weights give a finite logit (the mean square plus `eps` is positive, so its reciprocal root is a real). -/
theorem logit_real (X : Fin 2048 → Fin 768 → EReal) (g : Fin 768 → EReal) (W : Fin NV → Fin 768 → EReal)
    (hX : ∀ r d, ∃ x : ℝ, X r d = (x : EReal)) (hg : ∀ d, ∃ x : ℝ, g d = (x : EReal)) (hW : ∀ v d, ∃ x : ℝ, W v d = (x : EReal))
    (r : Fin 2048) (v : Fin NV) : ∃ x : ℝ, logit X g W r v = (x : EReal) := by
  choose x hx using hX
  choose gg hgg using hg
  choose w hw using hW
  obtain ⟨e, he, hee⟩ := eps_pos
  -- the sum of squares is a nonnegative real
  have hss : (∑ d : Fin 768, X r d * X r d) = ((∑ d : Fin 768, x r d * x r d : ℝ) : EReal) := by
    rw [coe_sum]; exact Finset.sum_congr rfl fun d _ => by rw [hx, EReal.coe_mul]
  have h0 : 0 ≤ ∑ d : Fin 768, x r d * x r d := Finset.sum_nonneg fun d _ => mul_self_nonneg _
  -- so the mean square plus eps is a positive real, and its reciprocal root a real
  have hpos : 0 < (∑ d : Fin 768, x r d * x r d) * (1 / 768 : ℝ) + e := by positivity
  have hr : rstd X r = (((Real.sqrt ((∑ d : Fin 768, x r d * x r d) * (1 / 768 : ℝ) + e))⁻¹ : ℝ) : EReal) := by
    rw [rstd, hss, c768_eq, Ideal.div_coe (by norm_num), hee, ← EReal.coe_mul, ← EReal.coe_add, Ideal.rsqrt_coe,
      if_neg (not_lt.2 hpos.le), if_neg hpos.ne']
  refine ⟨∑ d : Fin 768, x r d * (Real.sqrt ((∑ d : Fin 768, x r d * x r d) * (1 / 768 : ℝ) + e))⁻¹ * gg d * w v d, ?_⟩
  rw [logit, coe_sum]
  exact Finset.sum_congr rfl fun d _ => by rw [xn, hr, hx, hgg, hw, EReal.coe_mul, EReal.coe_mul, EReal.coe_mul]

/-! ### The running form over all of the naturals

  With the row's logits real, x v, the columns are read over the naturals: past the vocabulary's end the logit is ⊥ and its
  exponential 0, whatever the shift. Tile k is then the stretch of 512 naturals from 512 k, and the state after k tiles speaks
  of the first 512 k naturals. -/

section Running

variable (x : Fin NV → ℝ) (lb : BitVec 32)

/-- The logit at natural n, ⊥ past the end. -/
def zt (n : ℕ) : EReal := if h : n < NV then (x ⟨n, h⟩ : EReal) else ⊥

/-- The exponential of the logit at n shifted by B, 0 past the end. -/
def et (B : ℝ) (n : ℕ) : ℝ := if h : n < NV then Real.exp (x ⟨n, h⟩ - B) else 0

/-- What natural n adds to the logit found at the label. -/
def tt (n : ℕ) : EReal := if h : n < NV then (if lb.toNat = n then (x ⟨n, h⟩ : EReal) else 0) else 0

theorem zt_lt {n : ℕ} (h : n < NV) : zt x n = (x ⟨n, h⟩ : EReal) := dif_pos h
theorem zt_ge {n : ℕ} (h : ¬ n < NV) : zt x n = ⊥ := dif_neg h

/-- The exponential of a shifted column, at the extended reals, is the real one. -/
theorem exp_zt (B : ℝ) (n : ℕ) : Ideal.exp (zt x n - (B : EReal)) = ((et x B n : ℝ) : EReal) := by
  unfold zt et
  split_ifs with h
  · rw [← EReal.coe_sub, Ideal.exp_coe]
  · rw [EReal.bot_sub, Ideal.exp_bot, EReal.coe_zero]

/-- Moving the shift from A to B multiplies every exponential by exp (A - B). -/
theorem et_rescale (A B : ℝ) (n : ℕ) : Real.exp (A - B) * et x A n = et x B n := by
  unfold et
  split_ifs with h
  · rw [← Real.exp_add]; congr 1; ring
  · rw [mul_zero]

/-- A tile's maximum is the supremum over its stretch of naturals. -/
theorem fold_eq_sup (k : ℕ) :
    Finset.univ.fold max ⊥ (zm (fun v => (x v : EReal)) k) = (Finset.range 512).sup fun i => zt x (512 * k + i) := by
  refine eq_of_forall_ge_iff fun c => ?_
  rw [Finset.fold_max_le, Finset.sup_le_iff]
  constructor
  · rintro ⟨-, h⟩ i hi
    exact h ⟨i, Finset.mem_range.1 hi⟩ (Finset.mem_univ _)
  · intro h
    exact ⟨bot_le, fun j _ => h j.val (Finset.mem_range.2 j.isLt)⟩

/-- The supremum over the first a + b naturals is the larger of that over the first a and that over the next b. -/
theorem sup_range_add (f : ℕ → EReal) (a b : ℕ) :
    (Finset.range (a + b)).sup f = max ((Finset.range a).sup f) ((Finset.range b).sup fun i => f (a + i)) := by
  refine eq_of_forall_ge_iff fun c => ?_
  rw [max_le_iff, Finset.sup_le_iff, Finset.sup_le_iff, Finset.sup_le_iff]
  simp only [Finset.mem_range]
  constructor
  · intro h
    exact ⟨fun n hn => h n (by omega), fun i hi => h (a + i) (by omega)⟩
  · rintro ⟨h1, h2⟩ n hn
    by_cases hna : n < a
    · exact h1 n hna
    · have := h2 (n - a) (by omega)
      rwa [show a + (n - a) = n by omega] at this

/-- Over a nonempty stretch from 0 the supremum is a real: it is attained, and column 0 is a real below it. -/
theorem sup_real (n : ℕ) (hn : 0 < n) : ∃ M : ℝ, (Finset.range n).sup (zt x) = (M : EReal) := by
  obtain ⟨i, -, he⟩ := Finset.exists_mem_eq_sup (Finset.range n) ⟨0, Finset.mem_range.2 hn⟩ (zt x)
  by_cases h : i < NV
  · exact ⟨x ⟨i, h⟩, by rw [he, zt_lt x h]⟩
  · exfalso
    have h0 : zt x 0 ≤ (Finset.range n).sup (zt x) := Finset.le_sup (Finset.mem_range.2 hn)
    rw [he, zt_ge x h, zt_lt x (by norm_num : 0 < NV), le_bot_iff] at h0
    exact EReal.coe_ne_bot _ h0

theorem step_m (z : Fin NV → EReal) (k : ℕ) (s : St) :
    (step z lb k s).m = max s.m (Finset.univ.fold max ⊥ (zm z k)) := rfl
theorem step_l (z : Fin NV → EReal) (k : ℕ) (s : St) :
    (step z lb k s).l = Ideal.exp (s.m - (step z lb k s).m) * s.l + ∑ j : Fin 512, Ideal.exp (zm z k j - (step z lb k s).m) := rfl
theorem step_t (z : Fin NV → EReal) (k : ℕ) (s : St) :
    (step z lb k s).t = s.t + ∑ j : Fin 512, tg z lb k j := rfl

/-- What the state after k tiles is: the maximum is the supremum of the first 512 k columns; the running sum, rescaled to
    any real shift B, is the sum of those columns' exponentials relative to B; the third field is the sum of what those columns
    add at the label. (Before the first tile the maximum is ⊥ and the sum 0, and the rescaled sum is 0 whatever the factor.) -/
structure Inv (k : ℕ) (s : St) : Prop where
  m : s.m = (Finset.range (512 * k)).sup (zt x)
  l : ∀ B : ℝ, Ideal.exp (s.m - (B : EReal)) * s.l = ((∑ n ∈ Finset.range (512 * k), et x B n : ℝ) : EReal)
  t : s.t = ∑ n ∈ Finset.range (512 * k), tt x lb n

theorem inv_zero : Inv x lb 0 ⟨⊥, 0, 0⟩ := ⟨by simp, fun B => by simp, by simp⟩

/-- One tile keeps it. -/
theorem inv_step (k : ℕ) (s : St) (h : Inv x lb k s) : Inv x lb (k + 1) (step (fun v => (x v : EReal)) lb k s) := by
  have hm' : (step (fun v => (x v : EReal)) lb k s).m = (Finset.range (512 * (k + 1))).sup (zt x) := by
    rw [step_m, fold_eq_sup, h.m, mul_add, mul_one, sup_range_add]
  obtain ⟨M, hM⟩ := sup_real x (512 * (k + 1)) (by omega)
  have hl' : (step (fun v => (x v : EReal)) lb k s).l = ((∑ n ∈ Finset.range (512 * (k + 1)), et x M n : ℝ) : EReal) := by
    rw [step_l, hm', hM, h.l M, mul_add, mul_one, Finset.sum_range_add, EReal.coe_add, coe_sum (Finset.range 512),
      ← Fin.sum_univ_eq_sum_range]
    congr 1
    exact Finset.sum_congr rfl fun (j : Fin 512) _ => exp_zt x M (512 * k + j.val)
  refine ⟨hm', fun B => ?_, ?_⟩
  · rw [hm', hM, hl', ← EReal.coe_sub, Ideal.exp_coe, ← EReal.coe_mul, Finset.mul_sum]
    exact congrArg _ (Finset.sum_congr rfl fun n _ => et_rescale x M B n)
  · rw [step_t, h.t, mul_add, mul_one, Finset.sum_range_add, ← Fin.sum_univ_eq_sum_range]
    rfl

theorem inv_st (k : ℕ) : Inv x lb k (st (fun v => (x v : EReal)) lb k) := by
  induction k with
  | zero => exact inv_zero x lb
  | succ k ih => exact inv_step x lb k _ ih

end Running

/-- On finite logits and a label inside the vocabulary the running form is the one-pass form at the label's column. -/
theorem nll_eq (z : Fin NV → EReal) (hz : ∀ v, ∃ x : ℝ, z v = (x : EReal)) (lb : BitVec 32) (hl : lb.toNat < NV) :
    nllK z lb = nllR z ⟨lb.toNat, hl⟩ := by
  choose x hx using hz
  obtain rfl : z = fun v => (x v : EReal) := funext hx
  have I := inv_st x lb 63
  obtain ⟨M, hM⟩ := sup_real x (512 * 63) (by norm_num)
  have hm : (st (fun v => (x v : EReal)) lb 63).m = (M : EReal) := I.m.trans hM
  -- the running sum, at its own maximum
  have hl63 : (st (fun v => (x v : EReal)) lb 63).l = ((∑ n ∈ Finset.range (512 * 63), et x M n : ℝ) : EReal) := by
    have := I.l M
    rwa [hm, ← EReal.coe_sub, sub_self, Ideal.exp_coe, Real.exp_zero, EReal.coe_one, one_mul] at this
  -- the whole row's maximum is the same real: the naturals past the end read ⊥
  have hmax : Finset.univ.fold max ⊥ (fun v => (x v : EReal)) = (M : EReal) := by
    rw [← hM]
    refine eq_of_forall_ge_iff fun c => ?_
    rw [Finset.fold_max_le, Finset.sup_le_iff]
    constructor
    · rintro ⟨-, h⟩ n _
      by_cases hn : n < NV
      · rw [zt_lt x hn]; exact h ⟨n, hn⟩ (Finset.mem_univ _)
      · rw [zt_ge x hn]; exact bot_le
    · intro h
      refine ⟨bot_le, fun v _ => ?_⟩
      have := h v.val (Finset.mem_range.2 (lt_of_lt_of_le v.isLt (by norm_num)))
      rwa [zt_lt x v.isLt] at this
  -- the whole row's sum of exponentials is the same real: the naturals past the end add 0
  have hsum : ∑ v : Fin NV, Ideal.exp ((x v : EReal) - (M : EReal))
      = ((∑ n ∈ Finset.range (512 * 63), et x M n : ℝ) : EReal) := by
    have h1 : ∑ n ∈ Finset.range (512 * 63), et x M n = ∑ n ∈ Finset.range NV, et x M n := by
      rw [show 512 * 63 = NV + 128 from rfl, Finset.sum_range_add, add_eq_left]
      exact Finset.sum_eq_zero fun i _ => by rw [et, dif_neg (by omega)]
    rw [h1, ← Fin.sum_univ_eq_sum_range, coe_sum]
    exact Finset.sum_congr rfl fun v _ => by rw [← EReal.coe_sub, Ideal.exp_coe, et, dif_pos v.isLt]
  have hS : 0 < ∑ n ∈ Finset.range (512 * 63), et x M n := by
    refine Finset.sum_pos' (fun n _ => ?_) ⟨0, Finset.mem_range.2 (by norm_num), ?_⟩
    · unfold et; split_ifs
      · exact (Real.exp_pos _).le
      · exact le_rfl
    · rw [et, dif_pos (by norm_num : 0 < NV)]; exact Real.exp_pos _
  -- exactly the label's column adds at the label
  have ht : (st (fun v => (x v : EReal)) lb 63).t = (x ⟨lb.toNat, hl⟩ : EReal) := by
    rw [I.t, Finset.sum_eq_single lb.toNat]
    · rw [tt, dif_pos hl, if_pos rfl]
    · intro n _ hn
      unfold tt; split_ifs with h1 h2
      · exact absurd h2.symm hn
      · rfl
      · rfl
    · intro h; exact absurd (Finset.mem_range.2 (lt_of_lt_of_le hl (by norm_num))) h
  -- both sides are now real arithmetic
  generalize (∑ n ∈ Finset.range (512 * 63), et x M n) = S at hl63 hsum hS
  simp only [nllK, nllR]
  rw [hm, hl63, ht, hmax, max_eq_right bot_le, zero_add, hsum, Ideal.log_coe, if_neg (not_le.2 hS)]
  rw [← EReal.coe_add, ← EReal.coe_sub, ← EReal.coe_sub, ← EReal.coe_sub, ← EReal.coe_neg]
  refine congrArg _ ?_
  ring

/-- So the two mean losses agree, whatever column the one-pass form reads on the ignored rows. -/
theorem loss_eq (z : Fin 2048 → Fin NV → EReal) (hz : ∀ r v, ∃ x : ℝ, z r v = (x : EReal)) (lab : Fin 2048 → BitVec 32)
    (hl : LabOK lab) (idx : Fin 2048 → Fin NV) (hidx : ∀ r, lab r ≠ ign → (idx r).val = (lab r).toNat) :
    lossArr (fun r => nllK (z r) (lab r)) lab = lossArr (fun r => nllR (z r) (idx r)) lab := by
  have key : ∀ r, (if lab r = ign then (0 : EReal) else nllK (z r) (lab r))
      = (if lab r = ign then (0 : EReal) else nllR (z r) (idx r)) := by
    intro r
    by_cases h : lab r = ign
    · rw [if_pos h, if_pos h]
    · rw [if_neg h, if_neg h]
      have hlt : (lab r).toNat < NV := (hl r).resolve_left h
      rw [nll_eq (z r) (hz r) (lab r) hlt]
      congr 1
      exact Fin.ext (hidx r h).symm
  simp only [lossArr, key]

end Cert.Bridge

end
-- ==== Proof.PreFacts.lean ====
/-
  What the precondition says, entry by entry: every entry of the three float arguments is a real number, and every label is the
  ignored word or a column of the vocabulary.
-/
import proofs.«408325_j68298569941243_3_alg».proof.Pre_finite_inputs
import proofs.«408325_j68298569941243_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The scalar shape has one index. -/
instance : Subsingleton S_.Idx := ⟨fun a b => funext fun d => d.elim0⟩

/-- An extended real whose absolute value max x (−x) is strictly below the word of +∞ is neither infinity: it is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A 32-bit word that equals the word of −100, or is at least 0 and below 32128 as a signed integer, is the ignored word or
    has an unsigned value below 32128: a signed-nonnegative word reads the same signed and unsigned. -/
theorem label_of_bits (w : BitVec 32)
    (h : IntOp.ori (IntOp.cmpi .eq w 4294967196#32) (IntOp.andi (IntOp.cmpi .sge w 0#32) (IntOp.cmpi .slt w 32128#32)) = 1#1) :
    w = Cert.Spec.ign ∨ w.toNat < 32128 := by
  rcases IntOp.ori_eq_one.1 h with h | h
  · exact Or.inl (StableHlo.Predicate.cmpi_eq_iff.1 h)
  · right
    obtain ⟨h0, h1⟩ := IntOp.andi_eq_one.1 h
    simp only [IntOp.cmpi, StableHlo.Predicate.ofBool_eq_one_iff, BitVec.sle, BitVec.slt, decide_eq_true_eq] at h0 h1
    have e0 : (0#32 : BitVec 32).toInt = 0 := by decide
    have e1 : (32128#32 : BitVec 32).toInt = 32128 := by decide
    rw [e0] at h0
    rw [e1] at h1
    rw [BitVec.toInt_eq_toNat_cond] at h0 h1
    split at h0 <;> omega

/-- The printed predicate, all ones, read back at every entry. The predicate is a conjunction of four reductions by `and` over all
    axes; each being 1 makes its operand 1 at every index, and the operand at an index is the comparison |x| < +∞ of that entry,
    or the label test of that word. -/
theorem of_pre [Cert.Pre_finite_inputs.Facts] (a0 : FVec Ideal S4x512x768 .f32) (a1 : IVec S4x512 32) (a2 : FVec Ideal S768 .f32)
    (a3 : FVec Ideal S32128x768 .f32) (h : Cert.Pre_finite_inputs.fn (F := Ideal) a0 a1 a2 a3 = fun _ => 1#1) :
    (∀ i, ∃ x : ℝ, a0 i = (x : EReal)) ∧ (∀ i, ∃ x : ℝ, a2 i = (x : EReal)) ∧ (∀ i, ∃ x : ℝ, a3 i = (x : EReal))
      ∧ (∀ i, a1 i = Cert.Spec.ign ∨ (a1 i).toNat < 32128) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt (a0 i) (Host.reduce_andi_all _ _ _ _ _ h1 i)
  · exact real_of_abs_lt (a2 i) (Host.reduce_andi_all _ _ _ _ _ h2 i)
  · exact real_of_abs_lt (a3 i) (Host.reduce_andi_all _ _ _ _ _ h3 i)
  · exact label_of_bits (a1 i) (Host.reduce_andi_all _ _ _ _ _ h4 i)

end Cert.PreFacts

end
-- ==== Proof.lean ====
/-
  A decoder head: the rows of the hidden states are normalised by the reciprocal root of their mean square, scaled by a gain and
  multiplied against the vocabulary table to give the scores; the loss is the mean, over the positions whose label is not the
  ignored one, of the log-sum-exp of a row's scores less the score at its label.

  The kernel walks the vocabulary in 63 tiles of 512 columns per block of 1024 rows, keeping per row a running maximum, a running
  sum of exponentials relative to it and the score at the label; the last tile overhangs the table by 128 columns, which it
  masks with a constant that denotes `-∞` at the extended reals, so they neither raise the maximum nor add to the sum. The
  reference takes the maximum, the sum of exponentials and the score at the label in one pass. On finite inputs and labels that
  are the ignored word or a column of the table the two agree: the running sum rescaled to the final maximum is the one-pass sum.

  The word-level program's frame is proved with everything it writes left unnamed; the idealized program's run is proved
  with its carried statistics in closed form from tile to tile, which gives both its frame and its results; the reference's
  results are read off its run. The ledger's one entry is the named mask constant.
-/
import proofs.«408325_j68298569941243_3_alg».proof.Defs
import proofs.«408325_j68298569941243_3_alg».proof.Proof.Gen.Kernel
import proofs.«408325_j68298569941243_3_alg».proof.Proof.Gen.KernelIdeal
import proofs.«408325_j68298569941243_3_alg».proof.Proof.Gen.ReferenceIdeal
import proofs.«408325_j68298569941243_3_alg».proof.Proof.Gen.Pre_finite_inputs
import proofs.«408325_j68298569941243_3_alg».proof.Proof.KFrame
import proofs.«408325_j68298569941243_3_alg».proof.Proof.IData
import proofs.«408325_j68298569941243_3_alg».proof.Proof.KValue
import proofs.«408325_j68298569941243_3_alg».proof.Proof.RefValue
import proofs.«408325_j68298569941243_3_alg».proof.Proof.Bridge
import proofs.«408325_j68298569941243_3_alg».proof.Proof.PreFacts
import Idealize.ShloMosaic.Adequacy
import Idealize.ShloMosaic.Init

noncomputable section

namespace Cert.Proof

open Idealize.ShloMosaic Idealize.ShloMosaic.TcCoe Idealize.SL.Sem Cert.Spec

/-- The word-level program runs and leaves its arguments as launched. -/
theorem frame_k : Cert.frame_Kernel := fun m ρ _ => Cert.Kernel.Hand.frame (F := Bits) m ρ

theorem frame_ki : Cert.frame_KernelIdeal := fun m ρ _ =>
  (θ_run Cert.KernelIdeal.defs _ _).mono (fun _ h c => (h c).2.2)
    (Cert.KernelIdeal.Hand.kernel_value m ρ (Cert.KernelIdeal.Hand.run_main m ρ))

/-- The reference runs and leaves its arguments as launched: its run with the results dropped. -/
theorem frame_ri : Cert.frame_ReferenceIdeal := fun m ρ hpre => by
  obtain ⟨idx, _, h⟩ := Cert.ReferenceIdeal.RefValue.run_spec m ρ (fun c r => (Cert.PreFacts.of_pre _ _ _ _ (hpre c)).2.2.2 _)
  exact (θ_run Cert.ReferenceIdeal.defs _ _).mono (fun _ h c => (h c).2.2) h

/-- The ledger's one entry: the mask constant's name denotes `-∞` by the certificate's table. -/
theorem preserves : Cert.preserves_Kernel_KernelIdeal :=
  IdealRules.named_const.statement Cert.KernelIdeal.κ "neg_big" .f32 0xFF333332#32 ⊥ rfl

/-- Both idealized programs, from memories agreeing on the arguments, end with the same loss and the same scores. -/
theorem algebraic : Cert.algebraic_KernelIdeal_ReferenceIdeal := by
  intro m ρ m' ρ' hpre hagree
  have hP := fun c => Cert.PreFacts.of_pre _ _ _ _ (hpre c)
  have hlab : ∀ c : Dev Cert.KernelIdeal.nD, LabOK (labof (m ((c.tc : Thread Cert.KernelIdeal.nD Cert.KernelIdeal.τ).loc Cert.KernelIdeal.main_arg1))) :=
    fun c r => (hP c).2.2.2 _
  have hlab' : ∀ c : Dev Cert.ReferenceIdeal.nD, LabOK (labof (m' ((c.tc : Thread Cert.ReferenceIdeal.nD Cert.ReferenceIdeal.τ).loc Cert.ReferenceIdeal.main_arg1))) :=
    fun c => by rw [(hagree c).2.1]; exact hlab c
  obtain ⟨idx, hidx, href⟩ := Cert.ReferenceIdeal.RefValue.run_spec m' ρ' hlab'
  refine ⟨fun c => (fun _ => lossArr (fun q => nllK (Cert.KernelIdeal.Hand.zrow m c q) (Cert.KernelIdeal.Hand.lrow m c q))
      (labof (m ((c.tc : Thread Cert.KernelIdeal.nD Cert.KernelIdeal.τ).loc Cert.KernelIdeal.main_arg1)))),
    fun c => predArr (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.kernel_value m ρ (Cert.KernelIdeal.Hand.run_main m ρ), ?_⟩
  refine (θ_run Cert.ReferenceIdeal.defs _ _).mono (fun _ h c => ⟨(h c).1.trans ?_, (h c).2.1.trans ?_, (h c).2.2⟩) href
  · rw [(hagree c).1, (hagree c).2.1, (hagree c).2.2.1, (hagree c).2.2.2]
    funext _
    refine (Cert.Bridge.loss_eq (fun r => Cert.KernelIdeal.Hand.zrow m c r) (fun r v => ?_) _ (hlab c) (idx c) (fun r hr => ?_)).symm
    · exact Cert.Bridge.logit_real _ _ _ (fun r d => (hP c).1 _) (fun d => (hP c).2.1 _) (fun v d => (hP c).2.2.1 _) r v
    · have := hidx c r; rw [(hagree c).2.1] at this; exact this hr
  · rw [(hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
